-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S50000x128 : Shape := ⟨2, ![50000, 128]⟩
abbrev S2x1600000 : Shape := ⟨2, ![2, 1600000]⟩
abbrev S1600000 : Shape := ⟨1, ![1600000]⟩
abbrev S768x32 : Shape := ⟨2, ![768, 32]⟩
abbrev S32 : Shape := ⟨1, ![32]⟩
abbrev S128x32 : Shape := ⟨2, ![128, 32]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S768x32 : S_.BroadcastsInDim S768x32 (![] : Fin 0 → Fin S768x32.rank)
  reducesTo_S768x32_S_d0_1 : S768x32.ReducesTo [0, 1] S_
  bcast_S_S32 : S_.BroadcastsInDim S32 (![] : Fin 0 → Fin S32.rank)
  reducesTo_S32_S_d0 : S32.ReducesTo [0] S_
  bcast_S_S128x32 : S_.BroadcastsInDim S128x32 (![] : Fin 0 → Fin S128x32.rank)
  reducesTo_S128x32_S_d0_1 : S128x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64x64 .f32) (main_arg17 : FVec F S64x2 .f32) (main_arg18 : FVec F S2 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x2 .f32 := Host.absf main_arg17
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S64x64 .f32) (main_arg14 : FVec F S64x64 .f32) (main_arg15 : FVec F S64 .f32) (main_arg16 : FVec F S64x64 .f32) (main_arg17 : FVec F S64x2 .f32) (main_arg18 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_v63 main_v67

def fn_part2 {F : FTy → Type} [FloatOps F] (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x2 .f32) (main_arg18 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S128x32 .f32) (main_arg7 : FVec F S32 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x2 .f32) (main_arg18 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x768 .f32) (main_arg1 : FVec F S50000x128 .f32) (main_arg2 : IVec S2x1600000 32) (main_arg3 : IVec S1600000 32) (main_arg4 : FVec F S768x32 .f32) (main_arg5 : FVec F S32 .f32) (main_arg6 : FVec F S128x32 .f32) (main_arg7 : FVec F S32 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x2 .f32) (main_arg18 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S768x32 .f32 := Host.absf main_arg4
  let main_cst_2 : FVec F S_ .f32 := constant S_ .f32 0x7F800000#32
  let main_v10 : FVec F S768x32 .f32 := broadcastInDim S768x32 ![] bcast_S_S768x32 main_cst_2
  let main_v11 : IVec S768x32 1 := cmpf .olt main_v9 main_v10
  let main_c_3 : IVec S_ 1 := constantI S_ 1 1#1
  let main_v12 : IVec S_ 1 := (fun x v => Host.reduce IntOp.andi x v reducesTo_S768x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x768 : Shape := ⟨2, ![50000, 768]⟩
abbrev S50000x128 : Shape := ⟨2, ![50000, 128]⟩
abbrev S2x1600000 : Shape := ⟨2, ![2, 1600000]⟩
abbrev S1600000 : Shape := ⟨1, ![1600000]⟩
abbrev S768x32 : Shape := ⟨2, ![768, 32]⟩
abbrev S32 : Shape := ⟨1, ![32]⟩
abbrev S128x32 : Shape := ⟨2, ![128, 32]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x64 : Shape := ⟨2, ![50000, 64]⟩
abbrev S5000x768 : Shape := ⟨2, ![5000, 768]⟩
abbrev S5000x128 : Shape := ⟨2, ![5000, 128]⟩
abbrev S5000x64 : Shape := ⟨2, ![5000, 64]⟩
abbrev S5000x32 : Shape := ⟨2, ![5000, 32]⟩
abbrev S1x32 : Shape := ⟨2, ![1, 32]⟩
abbrev S128x64 : Shape := ⟨2, ![128, 64]⟩
abbrev S1600000x64 : Shape := ⟨2, ![1600000, 64]⟩
abbrev S1x64 : Shape := ⟨2, ![1, 64]⟩
abbrev S50000x2 : Shape := ⟨2, ![50000, 2]⟩
abbrev S5000x2 : Shape := ⟨2, ![5000, 2]⟩
abbrev S1x2 : Shape := ⟨2, ![1, 2]⟩

abbrev nBuf : Space → Nat
  | .hbm => 88
  | .vmem => 36
  | .smem => 0
  | _ => 0

abbrev bufTy : (tb : Table) → Fin (tcTables nBuf tb) → BufTy
  | .hbm, ⟨0, _⟩ => ⟨S50000x768, .f32⟩
  | .hbm, ⟨1, _⟩ => ⟨S50000x128, .f32⟩
  | .hbm, ⟨2, _⟩ => ⟨S2x1600000, .i32⟩
  | .hbm, ⟨3, _⟩ => ⟨S1600000, .i32⟩
  | .hbm, ⟨4, _⟩ => ⟨S768x32, .f32⟩
  | .hbm, ⟨5, _⟩ => ⟨S32, .f32⟩
  | .hbm, ⟨6, _⟩ => ⟨S128x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64x2, .f32⟩
  | .hbm, ⟨18, _⟩ => ⟨S2, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S50000, .f32⟩
  | .hbm, ⟨27, _⟩ => ⟨S1600000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S128x64, .f32⟩
  | .hbm, ⟨38, _⟩ => ⟨S128x64, .f32⟩
  | .hbm, ⟨39, _⟩ => ⟨S128x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S50000x64, .f32⟩
  | .hbm, ⟨51, _⟩ => ⟨S1600000x1, .i32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S50000x64, .f32⟩
  | .hbm, ⟨67, _⟩ => ⟨S1600000x1, .i32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S50000x64, .f32⟩
  | .hbm, ⟨83, _⟩ => ⟨S1600000x1, .i32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x2, .f32⟩
  | .local _ .vmem, ⟨0, _⟩ => ⟨S5000x768, .f32⟩
  | .local _ .vmem, ⟨1, _⟩ => ⟨S5000x768, .f32⟩
  | .local _ .vmem, ⟨2, _⟩ => ⟨S5000x128, .f32⟩
  | .local _ .vmem, ⟨3, _⟩ => ⟨S5000x128, .f32⟩
  | .local _ .vmem, ⟨4, _⟩ => ⟨S768x32, .f32⟩
  | .local _ .vmem, ⟨5, _⟩ => ⟨S32, .f32⟩
  | .local _ .vmem, ⟨6, _⟩ => ⟨S128x32, .f32⟩
  | .local _ .vmem, ⟨7, _⟩ => ⟨S32, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S128x64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S128x64, .f32⟩
  | .local _ .vmem, ⟨31, _⟩ => ⟨S64, .f32⟩
  | .local _ .vmem, ⟨32, _⟩ => ⟨S64x2, .f32⟩
  | .local _ .vmem, ⟨33, _⟩ => ⟨S2, .f32⟩
  | .local _ .vmem, ⟨34, _⟩ => ⟨S5000x2, .f32⟩
  | .local _ .vmem, ⟨35, _⟩ => ⟨S5000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_8 : Ref sig .tc := ⟨.hbm, 72, rfl⟩
abbrev main_v43 : Ref sig .tc := ⟨.hbm, 73, rfl⟩
abbrev main_v44 : Ref sig .tc := ⟨.hbm, 74, rfl⟩
abbrev main_c_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S5000x768_S5000x768_0_0 : ∀ a, (![0, 0] : Fin 2 → Nat) a + S5000x768.size a ≤ S5000x768.size a
  h_S5000x768 : 0 < S5000x768.numel
  inb_S768x32_S768x32_0_0 : ∀ a, (![0, 0] : Fin 2 → Nat) a + S768x32.size a ≤ S768x32.size a
  h_S768x32 : 0 < S768x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  concatenates_S5000x32_S5000x32_S5000x64_d1 : Shape.Concatenates [S5000x32, S5000x32] S5000x64 1
  inb_S5000x64_S5000x64_0_0 : ∀ a, (![0, 0] : Fin 2 → Nat) a + S5000x64.size a ≤ S5000x64.size a
  h_S5000x64 : 0 < S5000x64.numel
  concatenates_S64x64_S64x64_S128x64_d0 : Shape.Concatenates [S64x64, S64x64] S128x64 0
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S1600000x1_S1600000_n_0_0_1_wf : ScatterDims.WF S50000 S1600000x1 S1600000 [] [0] [0] 1
  dot_S5000x768_S768x32_S5000x32_1_0_0_1_n_n_wf : DotDims.WF S5000x768 S768x32 S5000x32 [1] [0] [0] [1] [] []
  dot_S5000x128_S128x32_S5000x32_1_0_0_1_n_n_wf : DotDims.WF S5000x128 S128x32 S5000x32 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x768.size a ≤ S50000x768.size a
  hwx0_0 : ∀ i : grid0.Coords, EltTy.bits .f32 = 32 ∨ (Rect.block (s := S50000x768) S5000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x32.size a ≤ S768x32.size a
  hwx0_2 : ∀ i : grid0.Coords, EltTy.bits .f32 = 32 ∨ (Rect.block (s := S768x32) S768x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x2.size a ≤ S64x2.size a
  hwx3_4 : ∀ i : grid3.Coords, EltTy.bits .f32 = 32 ∨ (Rect.block (s := S64x2) S64x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2.size a ≤ S2.size a
  hwx3_5 : ∀ i : grid3.Coords, EltTy.bits .f32 = 32 ∨ (Rect.block (s := S2) S2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x2.size a ≤ S50000x2.size a
  hwx3_6 : ∀ i : grid3.Coords, EltTy.bits .f32 = 32 ∨ (Rect.block (s := S50000x2) S5000x2.size (cc3_transform_6 i) (hinb3_6 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x768_S768x32_S5000x32_1_0_0_1_n_n : DotDims S5000x768 S768x32 S5000x32 where
  lhsContracting := [1]
  rhsContracting := [0]
  lhsNonContracting := [0]
  rhsNonContracting := [1]
  lhsBatch := []
  rhsBatch := []
  wf := dot_S5000x768_S768x32_S5000x32_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S768x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S64x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S5000x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x768 : Shape := ⟨2, ![50000, 768]⟩
abbrev S50000x128 : Shape := ⟨2, ![50000, 128]⟩
abbrev S2x1600000 : Shape := ⟨2, ![2, 1600000]⟩
abbrev S1600000 : Shape := ⟨1, ![1600000]⟩
abbrev S768x32 : Shape := ⟨2, ![768, 32]⟩
abbrev S32 : Shape := ⟨1, ![32]⟩
abbrev S128x32 : Shape := ⟨2, ![128, 32]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S50000x32 : Shape := ⟨2, ![50000, 32]⟩
abbrev S1x32 : Shape := ⟨2, ![1, 32]⟩
abbrev S50000x64 : Shape := ⟨2, ![50000, 64]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S1x64 : Shape := ⟨2, ![1, 64]⟩
abbrev S50000x2 : Shape := ⟨2, ![50000, 2]⟩
abbrev S1x2 : Shape := ⟨2, ![1, 2]⟩

abbrev nBuf : Space → Nat
  | .hbm => 138
  | .vmem => 0
  | .smem => 0
  | _ => 0

abbrev hbmTy0_0 (i : Nat) : BufTy := match i % 128 with
  | 0 => ⟨S50000x768, .f32⟩
  | 1 => ⟨S50000x128, .f32⟩
  | 2 => ⟨S2x1600000, .i32⟩
  | 3 => ⟨S1600000, .i32⟩
  | 4 => ⟨S768x32, .f32⟩
  | 5 => ⟨S32, .f32⟩
  | 6 => ⟨S128x32, .f32⟩
  | 7 => ⟨S32, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x2, .f32⟩
  | 18 => ⟨S2, .f32⟩
  | 19 => ⟨S1x1600000, .i32⟩
  | 20 => ⟨S1600000, .i32⟩
  | 21 => ⟨S1x1600000, .i32⟩
  | 22 => ⟨S1600000, .i32⟩
  | 23 => ⟨S50000x32, .f32⟩
  | 24 => ⟨S1x32, .f32⟩
  | 25 => ⟨S50000x32, .f32⟩
  | 26 => ⟨S50000x32, .f32⟩
  | 27 => ⟨S50000x32, .f32⟩
  | 28 => ⟨S1x32, .f32⟩
  | 29 => ⟨S50000x32, .f32⟩
  | 30 => ⟨S50000x32, .f32⟩
  | 31 => ⟨S50000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .f32⟩
  | 42 => ⟨S50000x64, .f32⟩
  | 43 => ⟨S1600000x1, .i32⟩
  | 44 => ⟨S50000x64, .f32⟩
  | 45 => ⟨S_, .f32⟩
  | 46 => ⟨S1600000, .f32⟩
  | 47 => ⟨S_, .f32⟩
  | 48 => ⟨S50000, .f32⟩
  | 49 => ⟨S1600000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x64, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .f32⟩
  | 76 => ⟨S50000x64, .f32⟩
  | 77 => ⟨S1600000x1, .i32⟩
  | 78 => ⟨S50000x64, .f32⟩
  | 79 => ⟨S_, .f32⟩
  | 80 => ⟨S1600000, .f32⟩
  | 81 => ⟨S_, .f32⟩
  | 82 => ⟨S50000, .f32⟩
  | 83 => ⟨S1600000x1, .i32⟩
  | 84 => ⟨S50000, .f32⟩
  | 85 => ⟨S_, .f32⟩
  | 86 => ⟨S50000, .f32⟩
  | 87 => ⟨S50000, .f32⟩
  | 88 => ⟨S50000x1, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S_, .f32⟩
  | 110 => ⟨S50000x64, .f32⟩
  | 111 => ⟨S1600000x1, .i32⟩
  | 112 => ⟨S50000x64, .f32⟩
  | 113 => ⟨S_, .f32⟩
  | 114 => ⟨S1600000, .f32⟩
  | 115 => ⟨S_, .f32⟩
  | 116 => ⟨S50000, .f32⟩
  | 117 => ⟨S1600000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x64, .f32⟩
  | 124 => ⟨S50000x64, .f32⟩
  | 125 => ⟨S50000x64, .f32⟩
  | 126 => ⟨S1x64, .f32⟩
  | 127 => ⟨S50000x64, .f32⟩
  | _ => ⟨S50000x768, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x2, .f32⟩
  | 7 => ⟨S1x2, .f32⟩
  | 8 => ⟨S50000x2, .f32⟩
  | 9 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call0_cst : Ref sig .tc := ⟨.hbm, 63, rfl⟩
abbrev main_call0_v0 : Ref sig .tc := ⟨.hbm, 64, rfl⟩
abbrev main_v38 : Ref sig .tc := ⟨.hbm, 65, rfl⟩
abbrev main_c_4 : Ref sig .tc := ⟨.hbm, 66, rfl⟩
abbrev main_v39 : Ref sig .tc := ⟨.hbm, 67, rfl⟩
abbrev main_v40 : Ref sig .tc := ⟨.hbm, 68, rfl⟩
abbrev main_c_5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_cst : Ref sig .tc := ⟨.hbm, 97, rfl⟩
abbrev main_call1_v0 : Ref sig .tc := ⟨.hbm, 98, rfl⟩
abbrev main_v64 : Ref sig .tc := ⟨.hbm, 99, rfl⟩
abbrev main_c_10 : Ref sig .tc := ⟨.hbm, 100, rfl⟩
abbrev main_v65 : Ref sig .tc := ⟨.hbm, 101, rfl⟩
abbrev main_v66 : Ref sig .tc := ⟨.hbm, 102, rfl⟩
abbrev main_c_11 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_call2_cst : Ref sig .tc := ⟨.hbm, 131, rfl⟩
abbrev main_call2_v0 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  concatenates_S50000x32_S50000x32_S50000x64_d1 : Shape.Concatenates [S50000x32, S50000x32] S50000x64 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x768_S768x32_S50000x32_1_0_0_1_n_n_wf : DotDims.WF S50000x768 S768x32 S50000x32 [1] [0] [0] [1] [] []
  dot_S50000x128_S128x32_S50000x32_1_0_0_1_n_n_wf : DotDims.WF S50000x128 S128x32 S50000x32 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []

variable [Facts₀]

def dot_S50000x768_S768x32_S50000x32_1_0_0_1_n_n : DotDims S50000x768 S768x32 S50000x32 where
  lhsContracting := [1]
  rhsContracting := [0]
  lhsNonContracting := [0]
  rhsNonContracting := [1]
  lhsBatch := []
  rhsBatch := []
  wf := dot_S50000x768_S768x32_S50000x32_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.Spec.lean ====
/-
  The mathematics of the two programs, over the extended reals, with no program in sight.

  A node-feature matrix is an array [n, d]; every operation below is ROW-LOCAL: entry (r, q) of the result reads only row r
  of the node-feature operands (and whole weight matrices), which is what lets a row block of the result be the same
  operation of the row blocks of the operands.

    affine X W b       (r, q) ↦ (∑ c, X[r, c] · W[c, q]) + b[q]
    catCols A B        columns of A followed by the columns of B
    catRows P Q        rows of P followed by the rows of Q
    layerJoined A X W b   (r, q) ↦ max ((∑ c < 128, [A | X][r, c] · W[c, q]) + b[q]) 0        one contraction over 128
    layerSplit A X Wl Wr b   (r, q) ↦ max (((∑ k < 64, A[r, k] · Wl[k, q]) + b[q]) + ∑ k < 64, X[r, k] · Wr[k, q]) 0

  Laws:
    a sum over 128 = 64 + 64 positions is the sum of its two halves, so with W = [Wl ; Wr] stacked by rows the joined
    contraction is the sum of the two split ones; addition on the extended reals is commutative and associative, so the
    bias may be added before or after the second contraction (no finiteness is needed: no product is distributed);
    and for a divisor c ≥ 1 (hence c ≠ 0) the quotient s / c is s · c⁻¹, which is also s · (1 / c).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«404516_j29910152249873_3_alg».proof.Proof.LibBlockOps

noncomputable section

open scoped BigOperators

namespace Cert.Sage

open Idealize.ShloMosaic Idealize.ShloMosaic.ValueIdx

/-- A matrix [n, d] of extended reals. -/
abbrev Mat (n d : Nat) := FVec Ideal (⟨2, ![n, d]⟩ : Shape) .f32
/-- A vector [d] of extended reals. -/
abbrev Row (d : Nat) := FVec Ideal (⟨1, ![d]⟩ : Shape) .f32

/-! ## The operations -/

/-- Rows of X through the affine map (W, b): entry (r, q) is (∑ c, X[r, c] · W[c, q]) + b[q]. -/
def affine {n k d : Nat} (X : Mat n k) (W : Mat k d) (b : Row d) : Mat n d :=
  fun i => (∑ c : Fin k, X (ix2 (i 0) c) * W (ix2 c (i 1))) + b (ix1 (i 1))

theorem affine_apply {n k d : Nat} (X : Mat n k) (W : Mat k d) (b : Row d) (r : Fin n) (q : Fin d) :
    affine X W b (ix2 r q) = (∑ c : Fin k, X (ix2 r c) * W (ix2 c q)) + b (ix1 q) := rfl

/-- The columns of A followed by the columns of B. -/
def catCols {n : Nat} (a b s : Nat) (hs : a + b = s) (A : Mat n a) (B : Mat n b) : Mat n s :=
  fun i => if h : (i 1).val < a then A (ix2 (i 0) ⟨(i 1).val, h⟩)
    else B (ix2 (i 0) ⟨(i 1).val - a, by have := idx2_lt1 i; omega⟩)

theorem catCols_left {n : Nat} (a b s : Nat) (hs : a + b = s) (A : Mat n a) (B : Mat n b) (r : Fin n) (k : Fin a) :
    catCols a b s hs A B (ix2 r ⟨k.val, by omega⟩) = A (ix2 r k) := by
  unfold catCols
  rw [dif_pos (show ((ix2 r (⟨k.val, by omega⟩ : Fin s)) 1).val < a from k.isLt)]
  rfl

theorem catCols_right {n : Nat} (a b s : Nat) (hs : a + b = s) (A : Mat n a) (B : Mat n b) (r : Fin n) (k : Fin b) :
    catCols a b s hs A B (ix2 r ⟨a + k.val, by omega⟩) = B (ix2 r k) := by
  unfold catCols
  rw [dif_neg (show ¬ ((ix2 r (⟨a + k.val, by omega⟩ : Fin s)) 1).val < a from by show ¬ a + k.val < a; omega)]
  congr 1
  funext ax
  match ax with
  | ⟨0, _⟩ => rfl
  | ⟨1, _⟩ => exact Fin.ext (by show a + k.val - a = k.val; omega)

/-- The rows of P followed by the rows of Q. -/
def catRows {d : Nat} (a b s : Nat) (hs : a + b = s) (P : Mat a d) (Q : Mat b d) : Mat s d :=
  fun i => if h : (i 0).val < a then P (ix2 ⟨(i 0).val, h⟩ (i 1))
    else Q (ix2 ⟨(i 0).val - a, by have := idx2_lt0 i; omega⟩ (i 1))

theorem catRows_top {d : Nat} (a b s : Nat) (hs : a + b = s) (P : Mat a d) (Q : Mat b d) (k : Fin a) (q : Fin d) :
    catRows a b s hs P Q (ix2 ⟨k.val, by omega⟩ q) = P (ix2 k q) := by
  unfold catRows
  rw [dif_pos (show ((ix2 (⟨k.val, by omega⟩ : Fin s) q) 0).val < a from k.isLt)]
  rfl

theorem catRows_bottom {d : Nat} (a b s : Nat) (hs : a + b = s) (P : Mat a d) (Q : Mat b d) (k : Fin b) (q : Fin d) :
    catRows a b s hs P Q (ix2 ⟨a + k.val, by omega⟩ q) = Q (ix2 k q) := by
  unfold catRows
  rw [dif_neg (show ¬ ((ix2 (⟨a + k.val, by omega⟩ : Fin s) q) 0).val < a from by show ¬ a + k.val < a; omega)]
  congr 1
  funext ax
  match ax with
  | ⟨0, _⟩ => exact Fin.ext (by show a + k.val - a = k.val; omega)
  | ⟨1, _⟩ => rfl

/-- One layer with the aggregate A and the features X joined along the columns and ONE contraction over the 128 joined
    positions against a weight matrix W [128, 64]: max ((∑ c, [A | X][r, c] · W[c, q]) + b[q]) 0. -/
def layerJoined {n : Nat} (A X : Mat n 64) (W : Mat 128 64) (b : Row 64) : Mat n 64 :=
  fun i => max (affine (catCols 64 64 128 rfl A X) W b i) 0

/-- One layer with two contractions over 64 positions and the bias added between them:
    max (((∑ k, A[r, k] · Wl[k, q]) + b[q]) + ∑ k, X[r, k] · Wr[k, q]) 0. -/
def layerSplit {n : Nat} (A X : Mat n 64) (Wl Wr : Mat 64 64) (b : Row 64) : Mat n 64 :=
  fun i => max (affine A Wl b i + ∑ k : Fin 64, X (ix2 (i 0) k) * Wr (ix2 k (i 1))) 0

/-- The projection of the two input feature blocks, joined along the columns. -/
def project {n : Nat} (Xc : Mat n 768) (Xs : Mat n 128) (Wp : Mat 768 32) (bp : Row 32) (Ws : Mat 128 32) (bs : Row 32) :
    Mat n 64 :=
  catCols 32 32 64 rfl (affine Xc Wp bp) (affine Xs Ws bs)

/-- A neighbour sum S [n, 64] over the node's clamped neighbour count, as a quotient. -/
def meanDiv {n : Nat} (S : Mat n 64) (den : Row n) : Mat n 64 :=
  fun i => Ideal.div (S i) (den (ix1 (i 0)))

/-! ## The laws -/

/-- A sum over 128 positions is the sum over the first 64 plus the sum over the last 64. -/
theorem sum_halves (f : Fin 128 → EReal) :
    ∑ c : Fin 128, f c = (∑ k : Fin 64, f ⟨k.val, by omega⟩) + ∑ k : Fin 64, f ⟨64 + k.val, by omega⟩ := by
  have h := Fin.sum_univ_add (M := EReal) (a := 64) (b := 64) f
  exact h

/-- With the weights stacked by rows, the joined contraction is the sum of the two split ones, and the bias may be added
    between them: addition on the extended reals is commutative and associative. -/
theorem layerJoined_catRows {n : Nat} (A X : Mat n 64) (Wl Wr : Mat 64 64) (b : Row 64) :
    layerJoined A X (catRows 64 64 128 rfl Wl Wr) b = layerSplit A X Wl Wr b := by
  funext i
  obtain ⟨r, q, rfl⟩ : ∃ (r : Fin n) (q : Fin 64), i = ix2 r q := ⟨i 0, i 1, eq_ix2 i⟩
  show max (affine (catCols 64 64 128 rfl A X) (catRows 64 64 128 rfl Wl Wr) b (ix2 r q)) 0
    = max (affine A Wl b (ix2 r q) + ∑ k : Fin 64, X (ix2 r k) * Wr (ix2 k q)) 0
  rw [affine_apply, affine_apply, sum_halves]
  congr 1
  have h1 : ∀ k : Fin 64, catCols 64 64 128 rfl A X (ix2 r (⟨k.val, by omega⟩ : Fin 128))
      * catRows 64 64 128 rfl Wl Wr (ix2 (⟨k.val, by omega⟩ : Fin 128) q) = A (ix2 r k) * Wl (ix2 k q) := fun k => by
    rw [catCols_left 64 64 128 rfl A X r k, catRows_top 64 64 128 rfl Wl Wr k q]
  have h2 : ∀ k : Fin 64, catCols 64 64 128 rfl A X (ix2 r (⟨64 + k.val, by omega⟩ : Fin 128))
      * catRows 64 64 128 rfl Wl Wr (ix2 (⟨64 + k.val, by omega⟩ : Fin 128) q) = X (ix2 r k) * Wr (ix2 k q) := fun k => by
    rw [catCols_right 64 64 128 rfl A X r k, catRows_bottom 64 64 128 rfl Wl Wr k q]
  rw [Finset.sum_congr rfl (fun k _ => h1 k), Finset.sum_congr rfl (fun k _ => h2 k)]
  exact add_right_comm _ _ _

/-- For a divisor c ≥ 1 the product with the reciprocal 1 / c is the quotient: off zero x / c is x · c⁻¹. -/
theorem mul_one_div (s c : EReal) (hc : 1 ≤ c) : s * Ideal.div 1 c = Ideal.div s c := by
  have h0 : c ≠ 0 := ne_of_gt (lt_of_lt_of_le zero_lt_one hc)
  unfold Ideal.div
  rw [if_neg h0, if_neg h0, one_mul]

/-! ## Row-locality: row r of a result reads only row r of the node-feature operands -/

theorem affine_rows {n n' k d : Nat} (X : Mat n k) (X' : Mat n' k) (W : Mat k d) (b : Row d) (r : Fin n) (r' : Fin n')
    (h : ∀ c : Fin k, X (ix2 r c) = X' (ix2 r' c)) (q : Fin d) : affine X W b (ix2 r q) = affine X' W b (ix2 r' q) := by
  rw [affine_apply, affine_apply, Finset.sum_congr rfl (fun c _ => by rw [h c])]

theorem catCols_rows {n n' : Nat} (a b s : Nat) (hs : a + b = s) (A : Mat n a) (B : Mat n b) (A' : Mat n' a) (B' : Mat n' b)
    (r : Fin n) (r' : Fin n') (hA : ∀ k : Fin a, A (ix2 r k) = A' (ix2 r' k)) (hB : ∀ k : Fin b, B (ix2 r k) = B' (ix2 r' k))
    (c : Fin s) : catCols a b s hs A B (ix2 r c) = catCols a b s hs A' B' (ix2 r' c) := by
  unfold catCols
  by_cases hc : c.val < a
  · rw [dif_pos (show ((ix2 r c : (⟨2, ![n, s]⟩ : Shape).Idx) 1).val < a from hc),
      dif_pos (show ((ix2 r' c : (⟨2, ![n', s]⟩ : Shape).Idx) 1).val < a from hc)]
    exact hA ⟨c.val, hc⟩
  · rw [dif_neg (show ¬ ((ix2 r c : (⟨2, ![n, s]⟩ : Shape).Idx) 1).val < a from hc),
      dif_neg (show ¬ ((ix2 r' c : (⟨2, ![n', s]⟩ : Shape).Idx) 1).val < a from hc)]
    exact hB ⟨c.val - a, by have := c.isLt; omega⟩

theorem layerJoined_rows {n n' : Nat} (A X : Mat n 64) (A' X' : Mat n' 64) (W : Mat 128 64) (b : Row 64) (r : Fin n) (r' : Fin n')
    (hA : ∀ k : Fin 64, A (ix2 r k) = A' (ix2 r' k)) (hX : ∀ k : Fin 64, X (ix2 r k) = X' (ix2 r' k)) (q : Fin 64) :
    layerJoined A X W b (ix2 r q) = layerJoined A' X' W b (ix2 r' q) := by
  show max (affine (catCols 64 64 128 rfl A X) W b (ix2 r q)) 0 = max (affine (catCols 64 64 128 rfl A' X') W b (ix2 r' q)) 0
  rw [affine_rows _ _ W b r r' (fun c => catCols_rows 64 64 128 rfl A X A' X' r r' hA hX c) q]

theorem project_rows {n n' : Nat} (Xc : Mat n 768) (Xs : Mat n 128) (Xc' : Mat n' 768) (Xs' : Mat n' 128)
    (Wp : Mat 768 32) (bp : Row 32) (Ws : Mat 128 32) (bs : Row 32) (r : Fin n) (r' : Fin n')
    (hc : ∀ k : Fin 768, Xc (ix2 r k) = Xc' (ix2 r' k)) (hs : ∀ k : Fin 128, Xs (ix2 r k) = Xs' (ix2 r' k)) (q : Fin 64) :
    project Xc Xs Wp bp Ws bs (ix2 r q) = project Xc' Xs' Wp bp Ws bs (ix2 r' q) :=
  catCols_rows 32 32 64 rfl _ _ _ _ r r' (fun k => affine_rows Xc Xc' Wp bp r r' hc k) (fun k => affine_rows Xs Xs' Ws bs r r' hs k) q

/-! ## The programs' layout operations, read at an entry -/

/-- The library's two-piece concatenation along the columns is `catCols`. -/
theorem concatenate_cols {n : Nat} (a b s : Nat) (hs : a + b = s) (A : Mat n a) (B : Mat n b)
    (h : Shape.Concatenates [(⟨2, ![n, a]⟩ : Shape), ⟨2, ![n, b]⟩] ⟨2, ![n, s]⟩ 1) :
    concatenate (⟨2, ![n, s]⟩ : Shape) 1 [⟨⟨2, ![n, a]⟩, A⟩, ⟨⟨2, ![n, b]⟩, B⟩] h = catCols a b s hs A B := by
  funext i
  obtain ⟨r, c, rfl⟩ : ∃ (r : Fin n) (c : Fin s), i = ix2 r c := ⟨i 0, i 1, eq_ix2 i⟩
  by_cases hc : c.val < a
  · have e : (ix2 r c : (⟨2, ![n, s]⟩ : Shape).Idx) = ix2 r (⟨(⟨c.val, hc⟩ : Fin a).val, by omega⟩ : Fin s) := rfl
    rw [e, catCols_left a b s hs A B r ⟨c.val, hc⟩]
    refine concatenate_pair_apply_left (t := ⟨2, ![n, s]⟩) (1 : Fin 2) A B h _ rfl (ix2 r ⟨c.val, hc⟩) fun ax => ?_
    match ax with
    | ⟨0, _⟩ => rfl
    | ⟨1, _⟩ => rfl
  · have hlt : c.val - a < b := by have := c.isLt; omega
    have e : (ix2 r c : (⟨2, ![n, s]⟩ : Shape).Idx) = ix2 r (⟨a + (⟨c.val - a, hlt⟩ : Fin b).val, by omega⟩ : Fin s) := by
      congr 1; exact Fin.ext (by show c.val = a + (c.val - a); omega)
    rw [e, catCols_right a b s hs A B r ⟨c.val - a, hlt⟩]
    refine concatenate_pair_apply_right (t := ⟨2, ![n, s]⟩) (1 : Fin 2) A B h _ rfl rfl (ix2 r ⟨c.val - a, hlt⟩) (fun ax hne => ?_) ?_
    · match ax with
      | ⟨0, _⟩ => rfl
      | ⟨1, _⟩ => exact absurd rfl hne
    · show c.val - a + a = a + (c.val - a); omega

/-- The library's two-piece concatenation along the rows is `catRows`. -/
theorem concatenate_rows {d : Nat} (a b s : Nat) (hs : a + b = s) (P : Mat a d) (Q : Mat b d)
    (h : Shape.Concatenates [(⟨2, ![a, d]⟩ : Shape), ⟨2, ![b, d]⟩] ⟨2, ![s, d]⟩ 0) :
    concatenate (⟨2, ![s, d]⟩ : Shape) 0 [⟨⟨2, ![a, d]⟩, P⟩, ⟨⟨2, ![b, d]⟩, Q⟩] h = catRows a b s hs P Q := by
  funext i
  obtain ⟨c, q, rfl⟩ : ∃ (c : Fin s) (q : Fin d), i = ix2 c q := ⟨i 0, i 1, eq_ix2 i⟩
  by_cases hc : c.val < a
  · have e : (ix2 c q : (⟨2, ![s, d]⟩ : Shape).Idx) = ix2 (⟨(⟨c.val, hc⟩ : Fin a).val, by omega⟩ : Fin s) q := rfl
    rw [e, catRows_top a b s hs P Q ⟨c.val, hc⟩ q]
    refine concatenate_pair_apply_left (t := ⟨2, ![s, d]⟩) (0 : Fin 2) P Q h _ rfl (ix2 ⟨c.val, hc⟩ q) fun ax => ?_
    match ax with
    | ⟨0, _⟩ => rfl
    | ⟨1, _⟩ => rfl
  · have hlt : c.val - a < b := by have := c.isLt; omega
    have e : (ix2 c q : (⟨2, ![s, d]⟩ : Shape).Idx) = ix2 (⟨a + (⟨c.val - a, hlt⟩ : Fin b).val, by omega⟩ : Fin s) q := by
      congr 1; exact Fin.ext (by show c.val = a + (c.val - a); omega)
    rw [e, catRows_bottom a b s hs P Q ⟨c.val - a, hlt⟩ q]
    refine concatenate_pair_apply_right (t := ⟨2, ![s, d]⟩) (0 : Fin 2) P Q h _ rfl rfl (ix2 ⟨c.val - a, hlt⟩ q) (fun ax hne => ?_) ?_
    · match ax with
      | ⟨0, _⟩ => exact absurd rfl hne
      | ⟨1, _⟩ => rfl
    · show c.val - a + a = a + (c.val - a); omega

/-- A bias vector [d] cast to a row [1, d] and spread over n rows reads, at (r, q), the vector's entry q. -/
theorem rowBias_apply {n d : Nat} (b : Row d) (hsc : (⟨1, ![d]⟩ : Shape).ShapeCasts ⟨2, ![1, d]⟩)
    (hb : (⟨2, ![1, d]⟩ : Shape).Broadcasts ⟨2, ![n, d]⟩) (r : Fin n) (q : Fin d) :
    broadcastTo (⟨2, ![n, d]⟩ : Shape) (shapeCast (⟨2, ![1, d]⟩ : Shape) b hsc) hb (ix2 r q) = b (ix1 q) := by
  rw [broadcastTo_apply _ hb (ix2 r q) (ix2 (0 : Fin 1) q) (fun ax => by
    match ax with
    | ⟨0, _⟩ => rfl
    | ⟨1, _⟩ =>
      show q.val = if d = 1 then 0 else q.val
      split
      · have := q.isLt; omega
      · rfl)]
  exact shapeCast_apply b hsc _ _ (by
    rw [Shape.rowMajor_val_two, Shape.rowMajor_val_one]
    show q.val = 0 * d + q.val
    omega)

/-- The host's spelling of the same bias: the vector laid as a row [1, d] and spread over n rows. -/
theorem rowBiasInDim_apply {n d : Nat} (b : Row d)
    (hrow : (⟨1, ![d]⟩ : Shape).BroadcastsInDim ⟨2, ![1, d]⟩ (![1] : Fin 1 → Fin 2))
    (hb : (⟨2, ![1, d]⟩ : Shape).BroadcastsInDim ⟨2, ![n, d]⟩ (![0, 1] : Fin 2 → Fin 2)) (r : Fin n) (q : Fin d) :
    broadcastInDim (⟨2, ![n, d]⟩ : Shape) ![0, 1] hb (broadcastInDim (⟨2, ![1, d]⟩ : Shape) ![1] hrow b) (ix2 r q) = b (ix1 q) := by
  rw [broadcastInDim_apply _ hb _ (ix2 r q) (ix2 (0 : Fin 1) q) (fun ax => by
    match ax with
    | ⟨0, _⟩ => rfl
    | ⟨1, _⟩ =>
      show q.val = if d = 1 then 0 else q.val
      split
      · have := q.isLt; omega
      · rfl)]
  exact broadcastInDim_apply _ hrow b (ix2 (0 : Fin 1) q) (ix1 q) (fun ax => by
    match ax with
    | ⟨0, _⟩ =>
      show q.val = if d = 1 then 0 else q.val
      split
      · have := q.isLt; omega
      · rfl)

/-! ## The host's spellings -/

/-- The host's matrix product of an m×k by a k×n matrix, at an entry: the sum over the contracted position. -/
theorem hostDot_apply {m k n : Nat} (w : DotDims.WF ⟨2, ![m, k]⟩ ⟨2, ![k, n]⟩ ⟨2, ![m, n]⟩ [1] [0] [0] [1] [] [])
    (prec : Option ContractPrecision) (A : Mat m k) (B : Mat k n) (a : Fin m) (b : Fin n) :
    Host.dotGeneral (BlockOps.rowCol w) prec A B (ix2 a b) = ∑ c : Fin k, A (ix2 a c) * B (ix2 c b) := by
  simp only [Host.dotGeneral]
  rw [Ideal.dotGeneral_apply, ← Equiv.sum_comp (contrEquiv1 (BlockOps.rowCol w) k rfl rfl).symm]
  refine Finset.sum_congr rfl fun c _ => ?_
  rw [BlockOps.rowCol_lhsIdx, BlockOps.rowCol_rhsIdx]

/-- The host's affine map: the product plus the bias laid as a row and spread over the rows. -/
theorem hostAffine_eq {n k d : Nat} (X : Mat n k) (W : Mat k d) (b : Row d)
    (w : DotDims.WF ⟨2, ![n, k]⟩ ⟨2, ![k, d]⟩ ⟨2, ![n, d]⟩ [1] [0] [0] [1] [] [])
    (hrow : (⟨1, ![d]⟩ : Shape).BroadcastsInDim ⟨2, ![1, d]⟩ (![1] : Fin 1 → Fin 2))
    (hb : (⟨2, ![1, d]⟩ : Shape).BroadcastsInDim ⟨2, ![n, d]⟩ (![0, 1] : Fin 2 → Fin 2)) :
    addf (Host.dotGeneral (BlockOps.rowCol w) none X W)
      (broadcastInDim (⟨2, ![n, d]⟩ : Shape) ![0, 1] hb (broadcastInDim (⟨2, ![1, d]⟩ : Shape) ![1] hrow b)) = affine X W b := by
  funext i
  obtain ⟨r, q, rfl⟩ : ∃ (r : Fin n) (q : Fin d), i = ix2 r q := ⟨i 0, i 1, eq_ix2 i⟩
  rw [addf_apply, affine_apply, hostDot_apply, rowBiasInDim_apply]

/-- The host's layer: two products over 64 positions, the bias added between them, the maximum with a spread zero. -/
theorem hostLayer_eq {n : Nat} (A X : Mat n 64) (Wl Wr : Mat 64 64) (b : Row 64)
    (w : DotDims.WF ⟨2, ![n, 64]⟩ ⟨2, ![64, 64]⟩ ⟨2, ![n, 64]⟩ [1] [0] [0] [1] [] [])
    (hrow : (⟨1, ![64]⟩ : Shape).BroadcastsInDim ⟨2, ![1, 64]⟩ (![1] : Fin 1 → Fin 2))
    (hb : (⟨2, ![1, 64]⟩ : Shape).BroadcastsInDim ⟨2, ![n, 64]⟩ (![0, 1] : Fin 2 → Fin 2))
    (hz : (⟨0, ![]⟩ : Shape).BroadcastsInDim ⟨2, ![n, 64]⟩ (![] : Fin 0 → Fin 2)) :
    maximumf (addf (addf (Host.dotGeneral (BlockOps.rowCol w) none A Wl)
        (broadcastInDim (⟨2, ![n, 64]⟩ : Shape) ![0, 1] hb (broadcastInDim (⟨2, ![1, 64]⟩ : Shape) ![1] hrow b)))
        (Host.dotGeneral (BlockOps.rowCol w) none X Wr))
      (broadcastInDim (⟨2, ![n, 64]⟩ : Shape) ![] hz (constant (F := Ideal) (⟨0, ![]⟩ : Shape) .f32 0x00000000#32))
      = layerSplit A X Wl Wr b := by
  rw [hostAffine_eq A Wl b w hrow hb]
  funext i
  obtain ⟨r, q, rfl⟩ : ∃ (r : Fin n) (q : Fin 64), i = ix2 r q := ⟨i 0, i 1, eq_ix2 i⟩
  rw [maximumf_apply, addf_apply, hostDot_apply]
  show max (affine A Wl b (ix2 r q) + ∑ c : Fin 64, X (ix2 r c) * Wr (ix2 c q))
      (broadcastInDim (⟨2, ![n, 64]⟩ : Shape) ![] hz (constant (F := Ideal) (⟨0, ![]⟩ : Shape) .f32 0x00000000#32) (ix2 r q))
    = max (affine A Wl b (ix2 r q) + ∑ k : Fin 64, X (ix2 r k) * Wr (ix2 k q)) 0
  rw [broadcastInDim_apply _ hz _ (ix2 r q) ix0 (fun ax => ax.elim0), constant_apply, Ideal.ofBits_zero_f32]

/-! ## The neighbour mean in its two array spellings -/

/-- A column [n, 1] spread over d columns reads, at (r, q), the column's entry in row r. -/
theorem spreadCols_apply {α : Type} {n d : Nat} (v : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h v (ix2 r q) = v (ix2 r (0 : Fin 1)) := by
  refine broadcastInDim_apply _ h v (ix2 r q) (ix2 r (0 : Fin 1)) fun ax => ?_
  match ax with
  | ⟨0, _⟩ =>
    show r.val = if n = 1 then 0 else r.val
    split
    · have := r.isLt; omega
    · rfl
  | ⟨1, _⟩ => rfl

/-- A vector [n] laid as a column [n, 1] reads, at (r, u), the vector's entry r. -/
theorem column_apply {α : Type} {n : Nat} (v : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h v (ix2 r u) = v (ix1 r) := by
  refine broadcastInDim_apply _ h v (ix2 r u) (ix1 r) fun ax => ?_
  match ax with
  | ⟨0, _⟩ =>
    show r.val = if n = 1 then 0 else r.val
    split
    · have := r.isLt; omega
    · rfl

/-- The neighbour sum times the reciprocal of the clamped count, the reciprocal taken once per node, laid as a column and
    spread over the columns, is the mean as a quotient: the clamped count is at least 1, so not 0. -/
theorem mul_recip_eq_meanDiv {n : Nat} (S : Mat n 64) (one den : Row n) (h1 : ∀ i, one i = 1) (hden : ∀ i, 1 ≤ den i)
    (hcol : (⟨1, ![n]⟩ : Shape).BroadcastsInDim ⟨2, ![n, 1]⟩ (![0] : Fin 1 → Fin 2))
    (hspread : (⟨2, ![n, 1]⟩ : Shape).BroadcastsInDim ⟨2, ![n, 64]⟩ (![0, 1] : Fin 2 → Fin 2)) :
    mulf S (broadcastInDim ⟨2, ![n, 64]⟩ ![0, 1] hspread (broadcastInDim ⟨2, ![n, 1]⟩ ![0] hcol (Host.divf one den)))
      = meanDiv S den := by
  funext i
  obtain ⟨r, q, rfl⟩ : ∃ (r : Fin n) (q : Fin 64), i = ix2 r q := ⟨i 0, i 1, eq_ix2 i⟩
  rw [mulf_apply, spreadCols_apply, column_apply]
  show S (ix2 r q) * Ideal.div (one (ix1 r)) (den (ix1 r)) = Ideal.div (S (ix2 r q)) (den (ix1 r))
  rw [h1]
  exact mul_one_div _ _ (hden _)

/-- The neighbour sum over the clamped count laid as a column and spread over the columns is the mean as a quotient. -/
theorem div_spread_eq_meanDiv {n : Nat} (S : Mat n 64) (den : Row n)
    (hcol : (⟨1, ![n]⟩ : Shape).BroadcastsInDim ⟨2, ![n, 1]⟩ (![0] : Fin 1 → Fin 2))
    (hspread : (⟨2, ![n, 1]⟩ : Shape).BroadcastsInDim ⟨2, ![n, 64]⟩ (![0, 1] : Fin 2 → Fin 2)) :
    Host.divf S (broadcastInDim ⟨2, ![n, 64]⟩ ![0, 1] hspread (broadcastInDim ⟨2, ![n, 1]⟩ ![0] hcol den))
      = meanDiv S den := by
  funext i
  obtain ⟨r, q, rfl⟩ : ∃ (r : Fin n) (q : Fin 64), i = ix2 r q := ⟨i 0, i 1, eq_ix2 i⟩
  show Ideal.div (S (ix2 r q)) (broadcastInDim ⟨2, ![n, 64]⟩ ![0, 1] hspread (broadcastInDim ⟨2, ![n, 1]⟩ ![0] hcol den) (ix2 r q))
    = Ideal.div (S (ix2 r q)) (den (ix1 r))
  rw [spreadCols_apply, column_apply]

/-! ## The whole network -/

/-- One message-passing step: the neighbour mean of X (the aggregation `Agg` is any function of the feature matrix, the
    clamped count `den` any vector), then the layer. -/
def step {n : Nat} (Agg : Mat n 64 → Mat n 64) (den : Row n) (X : Mat n 64) (Wl Wr : Mat 64 64) (b : Row 64) : Mat n 64 :=
  layerSplit (meanDiv (Agg X) den) X Wl Wr b

/-- The projection, three steps, and the output head. -/
def net {n : Nat} (Agg : Mat n 64 → Mat n 64) (den : Row n) (Xc : Mat n 768) (Xs : Mat n 128)
    (Wp : Mat 768 32) (bp : Row 32) (Ws : Mat 128 32) (bs : Row 32)
    (Wl1 : Mat 64 64) (bl1 : Row 64) (Wr1 : Mat 64 64) (Wl2 : Mat 64 64) (bl2 : Row 64) (Wr2 : Mat 64 64)
    (Wl3 : Mat 64 64) (bl3 : Row 64) (Wr3 : Mat 64 64) (Wo : Mat 64 2) (bo : Row 2) : Mat n 2 :=
  affine (step Agg den (step Agg den (step Agg den (project Xc Xs Wp bp Ws bs) Wl1 Wr1 bl1) Wl2 Wr2 bl2) Wl3 Wr3 bl3) Wo bo

end Cert.Sage

end
-- ==== Proof.KernelBlocks.lean ====
/-
  What each kernel body computes on its blocks, as the specification's operations.

  Every body loads whole blocks, does its arithmetic, and stores one block. At the extended reals the block product into a
  zero accumulator is the plain sum over the contracted position, a change of layout that keeps the shape is the identity,
  a concatenation along the columns is the columns side by side, and a bias vector cast to a row and spread over the rows
  adds the same entry to every row. So:
    the projection body is `project` of its blocks;
    a combine body is `layerJoined` of its blocks (one contraction over the 128 joined columns, bias, max with 0);
    the last body is the output head `affine` of that.
-/
import proofs.«404516_j29910152249873_3_alg».proof.Proof.Gen.KernelIdeal.Skeleton
import proofs.«404516_j29910152249873_3_alg».proof.Proof.Spec
import proofs.«404516_j29910152249873_3_alg».proof.Proof.LibBlockOps

noncomputable section

open scoped BigOperators

namespace Cert.KernelIdeal.Blocks

open Cert.KernelIdeal Cert.KernelIdeal.Gen Idealize.ShloMosaic Idealize.ShloMosaic.ValueIdx Cert.Sage

/-- The block product of the kernels' combine step into a zero block, at an entry: the sum over the 128 joined positions. -/
theorem matmul_128 (A : FVec Ideal S5000x128 .f32) (B : FVec Ideal S128x64 .f32) (p : Fin 5000) (q : Fin 64) :
    matmul dot_S5000x128_S128x64_S5000x64_1_0_0_1_n_n (some .fp32) A B (constant (F := Ideal) S5000x64 .f32 0x00000000#32) (ix2 p q)
      = ∑ c : Fin 128, A (ix2 p c) * B (ix2 c q) :=
  BlockOps.matmul_zero_apply dot_S5000x128_S128x64_S5000x64_1_0_0_1_n_n.wf (some .fp32) A B p q

/-- A combine body is one layer with the aggregate and the features joined along the columns. -/
theorem pay1 (a x : Vec Ideal S5000x64 .f32) (w : Vec Ideal S128x64 .f32) (b : Vec Ideal S64 .f32) :
    k1_pay1 (F := Ideal) a x w b = layerJoined a x w b := by
  funext i
  obtain ⟨p, q, rfl⟩ : ∃ (p : Fin 5000) (q : Fin 64), i = ix2 p q := ⟨i 0, i 1, eq_ix2 i⟩
  unfold k1_pay1
  rw [shapeCast_self, shapeCast_self, shapeCast_self, concatenate_cols 64 64 128 rfl a x]
  show max (matmul dot_S5000x128_S128x64_S5000x64_1_0_0_1_n_n (some .fp32) (catCols 64 64 128 rfl a x) w
        (constant (F := Ideal) S5000x64 .f32 0x00000000#32) (ix2 p q)
      + broadcastTo S5000x64 (shapeCast S1x64 b shapeCasts_S64_S1x64) broadcasts_S1x64_S5000x64 (ix2 p q))
      (Ideal.ofBits .f32 0x00000000#32)
    = max (affine (catCols 64 64 128 rfl a x) w b (ix2 p q)) 0
  rw [Ideal.ofBits_zero_f32, affine_apply, matmul_128, rowBias_apply]

/-- The sibling combine body is the same function. -/
theorem pay2 (a x : Vec Ideal S5000x64 .f32) (w : Vec Ideal S128x64 .f32) (b : Vec Ideal S64 .f32) :
    k2_pay1 (F := Ideal) a x w b = layerJoined a x w b :=
  (show k2_pay1 (F := Ideal) a x w b = k1_pay1 (F := Ideal) a x w b from rfl).trans (pay1 a x w b)

/-- The two projections' block products into a zero block, at an entry: plain sums. -/
theorem matmul_768 (A : FVec Ideal S5000x768 .f32) (B : FVec Ideal S768x32 .f32) (p : Fin 5000) (q : Fin 32) :
    matmul dot_S5000x768_S768x32_S5000x32_1_0_0_1_n_n (some .fp32) A B (constant (F := Ideal) S5000x32 .f32 0x00000000#32) (ix2 p q)
      = ∑ c : Fin 768, A (ix2 p c) * B (ix2 c q) :=
  BlockOps.matmul_zero_apply dot_S5000x768_S768x32_S5000x32_1_0_0_1_n_n.wf (some .fp32) A B p q

theorem matmul_128_32 (A : FVec Ideal S5000x128 .f32) (B : FVec Ideal S128x32 .f32) (p : Fin 5000) (q : Fin 32) :
    matmul dot_S5000x128_S128x32_S5000x32_1_0_0_1_n_n (some .fp32) A B (constant (F := Ideal) S5000x32 .f32 0x00000000#32) (ix2 p q)
      = ∑ c : Fin 128, A (ix2 p c) * B (ix2 c q) :=
  BlockOps.matmul_zero_apply dot_S5000x128_S128x32_S5000x32_1_0_0_1_n_n.wf (some .fp32) A B p q

/-- The output head's block product into a zero block, at an entry. -/
theorem matmul_64_2 (A : FVec Ideal S5000x64 .f32) (B : FVec Ideal S64x2 .f32) (p : Fin 5000) (q : Fin 2) :
    matmul dot_S5000x64_S64x2_S5000x2_1_0_0_1_n_n (some .fp32) A B (constant (F := Ideal) S5000x2 .f32 0x00000000#32) (ix2 p q)
      = ∑ c : Fin 64, A (ix2 p c) * B (ix2 c q) :=
  BlockOps.matmul_zero_apply dot_S5000x64_S64x2_S5000x2_1_0_0_1_n_n.wf (some .fp32) A B p q

/-- The projection body: the two affine maps of the content and style blocks, side by side. -/
theorem pay0 (xc : Vec Ideal S5000x768 .f32) (wp : Vec Ideal S768x32 .f32) (bp : Vec Ideal S32 .f32)
    (xs : Vec Ideal S5000x128 .f32) (ws : Vec Ideal S128x32 .f32) (bs : Vec Ideal S32 .f32) :
    k0_pay1 (F := Ideal) xc wp bp xs ws bs = project xc xs wp bp ws bs := by
  unfold k0_pay1 project
  dsimp only
  rw [concatenate_cols 32 32 64 rfl]
  congr 1
  · funext i
    obtain ⟨p, q, rfl⟩ : ∃ (p : Fin 5000) (q : Fin 32), i = ix2 p q := ⟨i 0, i 1, eq_ix2 i⟩
    show matmul dot_S5000x768_S768x32_S5000x32_1_0_0_1_n_n (some .fp32) xc wp (constant (F := Ideal) S5000x32 .f32 0x00000000#32) (ix2 p q)
        + broadcastTo S5000x32 (shapeCast S1x32 bp shapeCasts_S32_S1x32) broadcasts_S1x32_S5000x32 (ix2 p q)
      = affine xc wp bp (ix2 p q)
    rw [affine_apply, matmul_768, rowBias_apply]
  · funext i
    obtain ⟨p, q, rfl⟩ : ∃ (p : Fin 5000) (q : Fin 32), i = ix2 p q := ⟨i 0, i 1, eq_ix2 i⟩
    show matmul dot_S5000x128_S128x32_S5000x32_1_0_0_1_n_n (some .fp32) xs ws (constant (F := Ideal) S5000x32 .f32 0x00000000#32) (ix2 p q)
        + broadcastTo S5000x32 (shapeCast S1x32 bs shapeCasts_S32_S1x32) broadcasts_S1x32_S5000x32 (ix2 p q)
      = affine xs ws bs (ix2 p q)
    rw [affine_apply, matmul_128_32, rowBias_apply]

/-- The last body: the output head of the layer. -/
theorem pay3 (a x : Vec Ideal S5000x64 .f32) (w : Vec Ideal S128x64 .f32) (b : Vec Ideal S64 .f32)
    (wo : Vec Ideal S64x2 .f32) (bo : Vec Ideal S2 .f32) :
    k3_pay1 (F := Ideal) a x w b wo bo = affine (layerJoined a x w b) wo bo := by
  have e : k3_pay1 (F := Ideal) a x w b wo bo
      = addf (matmul dot_S5000x64_S64x2_S5000x2_1_0_0_1_n_n (some .fp32) (k1_pay1 (F := Ideal) a x w b) wo
          (constant (F := Ideal) S5000x2 .f32 0x00000000#32))
        (broadcastTo S5000x2 (shapeCast S1x2 bo shapeCasts_S2_S1x2) broadcasts_S1x2_S5000x2) := rfl
  rw [e, pay1]
  funext i
  obtain ⟨p, q, rfl⟩ : ∃ (p : Fin 5000) (q : Fin 2), i = ix2 p q := ⟨i 0, i 1, eq_ix2 i⟩
  rw [addf_apply, affine_apply, matmul_64_2, rowBias_apply]

end Cert.KernelIdeal.Blocks

end
-- ==== Proof.KernelRegion0.lean ====
/-
  What the projection region leaves in its output array: the projection of the arrays the region finds.

  Point t of the grid reads rows 5000·t … 5000·t + 4999 of the content and of the style features (and the whole of the two
  weight matrices and of the two biases) and writes the same rows of the output. The projection is row-local and the ten
  row blocks tile the 50000 rows.
-/
import proofs.«404516_j29910152249873_3_alg».proof.Proof.Gen.KernelIdeal.Frame
import proofs.«404516_j29910152249873_3_alg».proof.Proof.KernelBlocks
import Idealize.ShloMosaic.Lib.Pipeline.Value

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the content and style windows move with the output window along the rows and stay at
    column block 0; the weight and bias windows stay at block 0. -/
theorem idx0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 9 :=
  (by decide +kernel : ∀ t : Fin grid0.N, _)

/-- Every row block of the output is some point's. -/
theorem onto0 : ∀ q0 : Fin 10, ∃ t : Fin cfg0.N, win0_6.index t = ![q0.val, 0] :=
  (by decide +kernel : ∀ q0 : Fin 10, ∃ t : Fin grid0.N, win0_6.index t = ![q0.val, 0])

/-- The content weights' block at every point is the whole matrix. -/
theorem wpblk (c : Dev nD) (t : Fin cfg0.N) : iblk0 V c 2 t = V c main_arg4 := by
  obtain ⟨e0, e1, e2, e3, e4, e5, e6, e7, e8, e9, e10, e11⟩ := idx0 t
  funext y
  show V c main_arg4 (((cfg0.win 2).blk t).view.emb y) = V c main_arg4 y
  congr 1; funext a; apply Fin.ext
  match a with
  | ⟨0, _⟩ => show win0_2.index t (0 : Fin 2) * 768 + 1 * (y 0).val = (y 0).val; omega
  | ⟨1, _⟩ => show win0_2.index t (1 : Fin 2) * 32 + 1 * (y 1).val = (y 1).val; omega

/-- The content bias's block at every point is the whole vector. -/
theorem bpblk (c : Dev nD) (t : Fin cfg0.N) : iblk0 V c 3 t = V c main_arg5 := by
  obtain ⟨e0, e1, e2, e3, e4, e5, e6, e7, e8, e9, e10, e11⟩ := idx0 t
  funext y
  show V c main_arg5 (((cfg0.win 3).blk t).view.emb y) = V c main_arg5 y
  congr 1; funext a; apply Fin.ext
  match a with
  | ⟨0, _⟩ => show win0_3.index t (0 : Fin 1) * 32 + 1 * (y 0).val = (y 0).val; omega

/-- The style weights' block at every point is the whole matrix. -/
theorem wsblk (c : Dev nD) (t : Fin cfg0.N) : iblk0 V c 4 t = V c main_arg6 := by
  obtain ⟨e0, e1, e2, e3, e4, e5, e6, e7, e8, e9, e10, e11⟩ := idx0 t
  funext y
  show V c main_arg6 (((cfg0.win 4).blk t).view.emb y) = V c main_arg6 y
  congr 1; funext a; apply Fin.ext
  match a with
  | ⟨0, _⟩ => show win0_4.index t (0 : Fin 2) * 128 + 1 * (y 0).val = (y 0).val; omega
  | ⟨1, _⟩ => show win0_4.index t (1 : Fin 2) * 32 + 1 * (y 1).val = (y 1).val; omega

/-- The style bias's block at every point is the whole vector. -/
theorem bsblk (c : Dev nD) (t : Fin cfg0.N) : iblk0 V c 5 t = V c main_arg7 := by
  obtain ⟨e0, e1, e2, e3, e4, e5, e6, e7, e8, e9, e10, e11⟩ := idx0 t
  funext y
  show V c main_arg7 (((cfg0.win 5).blk t).view.emb y) = V c main_arg7 y
  congr 1; funext a; apply Fin.ext
  match a with
  | ⟨0, _⟩ => show win0_5.index t (0 : Fin 1) * 32 + 1 * (y 0).val = (y 0).val; omega

/-- What point t writes back is block t of the whole-array projection. -/
theorem flushed0 (c : Dev nD) (t : Fin cfg0.N) :
    (dat0 V c).flushed 6 t = ((cfg0.win 6).blk t).view.read (Elt Ideal)
      (project (V c main_arg0) (V c main_arg1) (V c main_arg4) (V c main_arg5) (V c main_arg6) (V c main_arg7)) := by
  show (cfg0.win 6).cut (grid0.coords t) ((dat0 V c).after 6 t) = _
  rw [after0_6]
  unfold out0_6
  rw [View.canon_unit_zero hz2]
  simp only [View.ld_unit_zero (S := S5000x768) hz2, View.ld_unit_zero (S := S5000x128) hz2, View.ld_unit_zero (S := S768x32) hz2,
    View.ld_unit_zero (S := S128x32) hz2, View.ld_unit_zero (S := S32) hz1]
  rw [Blocks.pay0, wpblk V c t, bpblk V c t, wsblk V c t, bsblk V c t]
  obtain ⟨e0, e1, e2, e3, e4, e5, e6, e7, e8, e9, e10, e11⟩ := idx0 t
  funext j
  have hj0 : (j 0).val < 5000 := (j 0).isLt
  have hj1 : (j 1).val < 64 := (j 1).isLt
  have hr : win0_6.index t (0 : Fin 2) * 5000 + (j 0).val < 50000 := by omega
  show project (iblk0 V c 0 t) (iblk0 V c 1 t) (V c main_arg4) (V c main_arg5) (V c main_arg6) (V c main_arg7) j
    = project (V c main_arg0) (V c main_arg1) (V c main_arg4) (V c main_arg5) (V c main_arg6) (V c main_arg7)
        (((cfg0.win 6).blk t).view.emb j)
  have hemb : ((cfg0.win 6).blk t).view.emb j
      = ix2 (⟨win0_6.index t (0 : Fin 2) * 5000 + (j 0).val, hr⟩ : Fin 50000) (⟨(j 1).val, hj1⟩ : Fin 64) := by
    funext a; apply Fin.ext
    match a with
    | ⟨0, _⟩ => show win0_6.index t (0 : Fin 2) * 5000 + 1 * (j 0).val = win0_6.index t (0 : Fin 2) * 5000 + (j 0).val; omega
    | ⟨1, _⟩ => show win0_6.index t (1 : Fin 2) * 64 + 1 * (j 1).val = (j 1).val; omega
  have hj : j = ix2 (⟨(j 0).val, hj0⟩ : Fin 5000) (⟨(j 1).val, hj1⟩ : Fin 64) := by
    funext a
    match a with
    | ⟨0, _⟩ => rfl
    | ⟨1, _⟩ => rfl
  rw [hemb]
  refine (congrArg (project (iblk0 V c 0 t) (iblk0 V c 1 t) (V c main_arg4) (V c main_arg5) (V c main_arg6) (V c main_arg7)) hj).trans ?_
  refine project_rows _ _ _ _ _ _ _ _ ⟨(j 0).val, hj0⟩ ⟨win0_6.index t (0 : Fin 2) * 5000 + (j 0).val, hr⟩
    (fun k => ?_) (fun k => ?_) ⟨(j 1).val, hj1⟩
  · show V c main_arg0 (((cfg0.win 0).blk t).view.emb (ix2 (⟨(j 0).val, hj0⟩ : Fin 5000) k))
      = V c main_arg0 (ix2 (⟨win0_6.index t (0 : Fin 2) * 5000 + (j 0).val, hr⟩ : Fin 50000) k)
    congr 1; funext a; apply Fin.ext
    match a with
    | ⟨0, _⟩ => show win0_0.index t (0 : Fin 2) * 5000 + 1 * (j 0).val = win0_6.index t (0 : Fin 2) * 5000 + (j 0).val; omega
    | ⟨1, _⟩ => show win0_0.index t (1 : Fin 2) * 768 + 1 * k.val = k.val; omega
  · show V c main_arg1 (((cfg0.win 1).blk t).view.emb (ix2 (⟨(j 0).val, hj0⟩ : Fin 5000) k))
      = V c main_arg1 (ix2 (⟨win0_6.index t (0 : Fin 2) * 5000 + (j 0).val, hr⟩ : Fin 50000) k)
    congr 1; funext a; apply Fin.ext
    match a with
    | ⟨0, _⟩ => show win0_1.index t (0 : Fin 2) * 5000 + 1 * (j 0).val = win0_6.index t (0 : Fin 2) * 5000 + (j 0).val; omega
    | ⟨1, _⟩ => show win0_1.index t (1 : Fin 2) * 128 + 1 * k.val = k.val; omega

/-- An index of the output array is in point t's block iff each coordinate is in the block's range on its axis. -/
theorem mem_blk0 (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v13).slice (win0_6.rect t)).set ↔ _
  rw [View.set_slice_whole, Rect.mem_set_unit]
  exact Iff.rfl

/-- The ten row blocks tile the 50000 rows. -/
theorem cover0 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ := onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The region's output array ends holding the projection of the arrays the region finds. -/
theorem region0 (c : Dev nD) : (dat0 V c).arrAt 6 cfg0.N
    = project (V c main_arg0) (V c main_arg1) (V c main_arg4) (V c main_arg5) (V c main_arg6) (V c main_arg7) :=
  (dat0 V c).arrAt_eq_of_cover 6 _ (fun t _ => flushed0 V c t) cover0

end Cert.KernelIdeal.Region0

end
-- ==== Proof.KernelRegion1.lean ====
/-
  What the first combine region leaves in its output array: the joined layer of the arrays the region finds.

  The region runs its body once per grid point t = 0 … 9. Point t reads rows 5000·t … 5000·t + 4999 of the aggregate and of
  the feature array (and the whole of the stacked weights and of the bias) and writes the same rows of the output array. The
  body's block function is row-local, so row p of point t's result block is row 5000·t + p of the whole-array layer; the ten
  blocks tile the 50000 rows, so the output array ends holding the whole-array layer.
-/
import proofs.«404516_j29910152249873_3_alg».proof.Proof.Gen.KernelIdeal.Frame
import proofs.«404516_j29910152249873_3_alg».proof.Proof.KernelBlocks
import Idealize.ShloMosaic.Lib.Pipeline.Value

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the two node-feature windows move with the output window along the rows and stay at
    column block 0; the weight and bias windows stay at block 0. -/
theorem idx1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (1 : Fin 2) = 0 ∧ win1_4.index t (0 : Fin 2) ≤ 9 :=
  (by decide +kernel : ∀ t : Fin grid1.N, _)

/-- Every row block of the output is some point's. -/
theorem onto1 : ∀ q0 : Fin 10, ∃ t : Fin cfg1.N, win1_4.index t = ![q0.val, 0] :=
  (by decide +kernel : ∀ q0 : Fin 10, ∃ t : Fin grid1.N, win1_4.index t = ![q0.val, 0])

/-- The weights' block at every point is the whole stacked weight array. -/
theorem wblk1 (c : Dev nD) (t : Fin cfg1.N) : iblk1 V c 2 t = V c main_v14 := by
  obtain ⟨e0, e1, e2, e3, e4, e5, e6, e7, e8⟩ := idx1 t
  funext y
  show V c main_v14 (((cfg1.win 2).blk t).view.emb y) = V c main_v14 y
  congr 1; funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- The bias's block at every point is the whole bias vector. -/
theorem bblk1 (c : Dev nD) (t : Fin cfg1.N) : iblk1 V c 3 t = V c main_arg9 := by
  obtain ⟨e0, e1, e2, e3, e4, e5, e6, e7, e8⟩ := idx1 t
  funext y
  show V c main_arg9 (((cfg1.win 3).blk t).view.emb y) = V c main_arg9 y
  congr 1; funext a; apply Fin.ext
  match a with
  | ⟨0, _⟩ => show win1_3.index t (0 : Fin 1) * 64 + 1 * (y 0).val = (y 0).val; omega

/-- What point t writes back is block t of the whole-array layer. -/
theorem flushed1 (c : Dev nD) (t : Fin cfg1.N) :
    (dat1 V c).flushed 4 t = ((cfg1.win 4).blk t).view.read (Elt Ideal)
      (layerJoined (V c main_v28) (V c main_v13) (V c main_v14) (V c main_arg9)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S128x64) hz2, View.ld_unit_zero (S := S64) hz1]
  rw [Blocks.pay1, wblk1 V c t, bblk1 V c t]
  obtain ⟨e0, e1, e2, e3, e4, e5, e6, e7, e8⟩ := idx1 t
  funext j
  have hj0 : (j 0).val < 5000 := (j 0).isLt
  have hj1 : (j 1).val < 64 := (j 1).isLt
  have hr : win1_4.index t (0 : Fin 2) * 5000 + (j 0).val < 50000 := by omega
  show layerJoined (iblk1 V c 0 t) (iblk1 V c 1 t) (V c main_v14) (V c main_arg9) j
    = layerJoined (V c main_v28) (V c main_v13) (V c main_v14) (V c main_arg9) (((cfg1.win 4).blk t).view.emb j)
  have hemb : ((cfg1.win 4).blk t).view.emb j
      = ix2 (⟨win1_4.index t (0 : Fin 2) * 5000 + (j 0).val, hr⟩ : Fin 50000) (⟨(j 1).val, hj1⟩ : Fin 64) := by
    funext a; apply Fin.ext
    match a with
    | ⟨0, _⟩ => show win1_4.index t (0 : Fin 2) * 5000 + 1 * (j 0).val = win1_4.index t (0 : Fin 2) * 5000 + (j 0).val; omega
    | ⟨1, _⟩ => show win1_4.index t (1 : Fin 2) * 64 + 1 * (j 1).val = (j 1).val; omega
  have hj : j = ix2 (⟨(j 0).val, hj0⟩ : Fin 5000) (⟨(j 1).val, hj1⟩ : Fin 64) := by
    funext a
    match a with
    | ⟨0, _⟩ => rfl
    | ⟨1, _⟩ => rfl
  rw [hemb]
  refine (congrArg (layerJoined (iblk1 V c 0 t) (iblk1 V c 1 t) (V c main_v14) (V c main_arg9)) hj).trans ?_
  refine layerJoined_rows _ _ _ _ _ _ ⟨(j 0).val, hj0⟩ ⟨win1_4.index t (0 : Fin 2) * 5000 + (j 0).val, hr⟩
    (fun k => ?_) (fun k => ?_) ⟨(j 1).val, hj1⟩
  · show V c main_v28 (((cfg1.win 0).blk t).view.emb (ix2 (⟨(j 0).val, hj0⟩ : Fin 5000) k))
      = V c main_v28 (ix2 (⟨win1_4.index t (0 : Fin 2) * 5000 + (j 0).val, hr⟩ : Fin 50000) k)
    congr 1; funext a; apply Fin.ext
    match a with
    | ⟨0, _⟩ => show win1_0.index t (0 : Fin 2) * 5000 + 1 * (j 0).val = win1_4.index t (0 : Fin 2) * 5000 + (j 0).val; omega
    | ⟨1, _⟩ => show win1_0.index t (1 : Fin 2) * 64 + 1 * k.val = k.val; omega
  · show V c main_v13 (((cfg1.win 1).blk t).view.emb (ix2 (⟨(j 0).val, hj0⟩ : Fin 5000) k))
      = V c main_v13 (ix2 (⟨win1_4.index t (0 : Fin 2) * 5000 + (j 0).val, hr⟩ : Fin 50000) k)
    congr 1; funext a; apply Fin.ext
    match a with
    | ⟨0, _⟩ => show win1_1.index t (0 : Fin 2) * 5000 + 1 * (j 0).val = win1_4.index t (0 : Fin 2) * 5000 + (j 0).val; omega
    | ⟨1, _⟩ => show win1_1.index t (1 : Fin 2) * 64 + 1 * k.val = k.val; omega

/-- An index of the output array is in point t's block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- The ten row blocks tile the 50000 rows. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The region's output array ends holding the layer of the arrays the region finds. -/
theorem region1 (c : Dev nD) :
    (dat1 V c).arrAt 4 cfg1.N = layerJoined (V c main_v28) (V c main_v13) (V c main_v14) (V c main_arg9) :=
  (dat1 V c).arrAt_eq_of_cover 4 _ (fun t _ => flushed1 V c t) cover1

end Cert.KernelIdeal.Region1

end
-- ==== Proof.KernelRegion2.lean ====
/-
  What the second combine region leaves in its output array: the joined layer of the arrays the region finds.

  The region runs its body once per grid point t = 0 … 9. Point t reads rows 5000·t … 5000·t + 4999 of the aggregate and of
  the feature array (and the whole of the stacked weights and of the bias) and writes the same rows of the output array. The
  body's block function is row-local, so row p of point t's result block is row 5000·t + p of the whole-array layer; the ten
  blocks tile the 50000 rows, so the output array ends holding the whole-array layer.
-/
import proofs.«404516_j29910152249873_3_alg».proof.Proof.Gen.KernelIdeal.Frame
import proofs.«404516_j29910152249873_3_alg».proof.Proof.KernelBlocks
import Idealize.ShloMosaic.Lib.Pipeline.Value

set_option maxRecDepth 16384

noncomputable section

namespace Cert.KernelIdeal.Region2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the two node-feature windows move with the output window along the rows and stay at
    column block 0; the weight and bias windows stay at block 0. -/
theorem idx2 : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (1 : Fin 2) = 0 ∧ win2_4.index t (0 : Fin 2) ≤ 9 :=
  (by decide +kernel : ∀ t : Fin grid2.N, _)

/-- Every row block of the output is some point's. -/
theorem onto2 : ∀ q0 : Fin 10, ∃ t : Fin cfg2.N, win2_4.index t = ![q0.val, 0] :=
  (by decide +kernel : ∀ q0 : Fin 10, ∃ t : Fin grid2.N, win2_4.index t = ![q0.val, 0])

/-- The weights' block at every point is the whole stacked weight array. -/
theorem wblk2 (c : Dev nD) (t : Fin cfg2.N) : iblk2 V c 2 t = V c main_v15 := by
  obtain ⟨e0, e1, e2, e3, e4, e5, e6, e7, e8⟩ := idx2 t
  funext y
  show V c main_v15 (((cfg2.win 2).blk t).view.emb y) = V c main_v15 y
  congr 1; funext a; apply Fin.ext
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- The bias's block at every point is the whole bias vector. -/
theorem bblk2 (c : Dev nD) (t : Fin cfg2.N) : iblk2 V c 3 t = V c main_arg12 := by
  obtain ⟨e0, e1, e2, e3, e4, e5, e6, e7, e8⟩ := idx2 t
  funext y
  show V c main_arg12 (((cfg2.win 3).blk t).view.emb y) = V c main_arg12 y
  congr 1; funext a; apply Fin.ext
  match a with
  | ⟨0, _⟩ => show win2_3.index t (0 : Fin 1) * 64 + 1 * (y 0).val = (y 0).val; omega

/-- What point t writes back is block t of the whole-array layer. -/
theorem flushed2 (c : Dev nD) (t : Fin cfg2.N) :
    (dat2 V c).flushed 4 t = ((cfg2.win 4).blk t).view.read (Elt Ideal)
      (layerJoined (V c main_v41) (V c main_v29) (V c main_v15) (V c main_arg12)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S128x64) hz2, View.ld_unit_zero (S := S64) hz1]
  rw [Blocks.pay2, wblk2 V c t, bblk2 V c t]
  obtain ⟨e0, e1, e2, e3, e4, e5, e6, e7, e8⟩ := idx2 t
  funext j
  have hj0 : (j 0).val < 5000 := (j 0).isLt
  have hj1 : (j 1).val < 64 := (j 1).isLt
  have hr : win2_4.index t (0 : Fin 2) * 5000 + (j 0).val < 50000 := by omega
  show layerJoined (iblk2 V c 0 t) (iblk2 V c 1 t) (V c main_v15) (V c main_arg12) j
    = layerJoined (V c main_v41) (V c main_v29) (V c main_v15) (V c main_arg12) (((cfg2.win 4).blk t).view.emb j)
  have hemb : ((cfg2.win 4).blk t).view.emb j
      = ix2 (⟨win2_4.index t (0 : Fin 2) * 5000 + (j 0).val, hr⟩ : Fin 50000) (⟨(j 1).val, hj1⟩ : Fin 64) := by
    funext a; apply Fin.ext
    match a with
    | ⟨0, _⟩ => show win2_4.index t (0 : Fin 2) * 5000 + 1 * (j 0).val = win2_4.index t (0 : Fin 2) * 5000 + (j 0).val; omega
    | ⟨1, _⟩ => show win2_4.index t (1 : Fin 2) * 64 + 1 * (j 1).val = (j 1).val; omega
  have hj : j = ix2 (⟨(j 0).val, hj0⟩ : Fin 5000) (⟨(j 1).val, hj1⟩ : Fin 64) := by
    funext a
    match a with
    | ⟨0, _⟩ => rfl
    | ⟨1, _⟩ => rfl
  rw [hemb]
  refine (congrArg (layerJoined (iblk2 V c 0 t) (iblk2 V c 1 t) (V c main_v15) (V c main_arg12)) hj).trans ?_
  refine layerJoined_rows _ _ _ _ _ _ ⟨(j 0).val, hj0⟩ ⟨win2_4.index t (0 : Fin 2) * 5000 + (j 0).val, hr⟩
    (fun k => ?_) (fun k => ?_) ⟨(j 1).val, hj1⟩
  · show V c main_v41 (((cfg2.win 0).blk t).view.emb (ix2 (⟨(j 0).val, hj0⟩ : Fin 5000) k))
      = V c main_v41 (ix2 (⟨win2_4.index t (0 : Fin 2) * 5000 + (j 0).val, hr⟩ : Fin 50000) k)
    congr 1; funext a; apply Fin.ext
    match a with
    | ⟨0, _⟩ => show win2_0.index t (0 : Fin 2) * 5000 + 1 * (j 0).val = win2_4.index t (0 : Fin 2) * 5000 + (j 0).val; omega
    | ⟨1, _⟩ => show win2_0.index t (1 : Fin 2) * 64 + 1 * k.val = k.val; omega
  · show V c main_v29 (((cfg2.win 1).blk t).view.emb (ix2 (⟨(j 0).val, hj0⟩ : Fin 5000) k))
      = V c main_v29 (ix2 (⟨win2_4.index t (0 : Fin 2) * 5000 + (j 0).val, hr⟩ : Fin 50000) k)
    congr 1; funext a; apply Fin.ext
    match a with
    | ⟨0, _⟩ => show win2_1.index t (0 : Fin 2) * 5000 + 1 * (j 0).val = win2_4.index t (0 : Fin 2) * 5000 + (j 0).val; omega
    | ⟨1, _⟩ => show win2_1.index t (1 : Fin 2) * 64 + 1 * k.val = k.val; omega

/-- An index of the output array is in point t's block iff each coordinate is in the block's range on its axis. -/
theorem mem_blk2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v42).slice (win2_4.rect t)).set ↔ _
  rw [View.set_slice_whole, Rect.mem_set_unit]
  exact Iff.rfl

/-- The ten row blocks tile the 50000 rows. -/
theorem cover2 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The region's output array ends holding the layer of the arrays the region finds. -/
theorem region2 (c : Dev nD) :
    (dat2 V c).arrAt 4 cfg2.N = layerJoined (V c main_v41) (V c main_v29) (V c main_v15) (V c main_arg12) :=
  (dat2 V c).arrAt_eq_of_cover 4 _ (fun t _ => flushed2 V c t) cover2

end Cert.KernelIdeal.Region2

end
-- ==== Proof.KernelRegion3.lean ====
/-
  What the last region leaves in its output array: the output head of the joined layer of the arrays the region finds.

  Point t of the grid reads rows 5000·t … 5000·t + 4999 of the aggregate and of the features (and the whole of the stacked
  layer weights, the layer bias, the head's weights and the head's bias) and writes the same rows of the output [50000, 2].
  The layer and the head are row-local and the ten row blocks tile the 50000 rows.
-/
import proofs.«404516_j29910152249873_3_alg».proof.Proof.Gen.KernelIdeal.Frame
import proofs.«404516_j29910152249873_3_alg».proof.Proof.KernelBlocks
import Idealize.ShloMosaic.Lib.Pipeline.Value

set_option maxRecDepth 16384

noncomputable section

namespace Cert.KernelIdeal.Region3

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the two node-feature windows move with the output window along the rows and stay at
    column block 0; the weight and bias windows stay at block 0. -/
theorem idx3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (1 : Fin 2) = 0 ∧ win3_6.index t (0 : Fin 2) ≤ 9 :=
  (by decide +kernel : ∀ t : Fin grid3.N, _)

/-- Every row block of the output is some point's. -/
theorem onto3 : ∀ q0 : Fin 10, ∃ t : Fin cfg3.N, win3_6.index t = ![q0.val, 0] :=
  (by decide +kernel : ∀ q0 : Fin 10, ∃ t : Fin grid3.N, win3_6.index t = ![q0.val, 0])

/-- The layer weights' block at every point is the whole stacked matrix. -/
theorem wblk3 (c : Dev nD) (t : Fin cfg3.N) : iblk3 V c 2 t = V c main_v16 := by
  obtain ⟨e0, e1, e2, e3, e4, e5, e6, e7, e8, e9, e10, e11⟩ := idx3 t
  funext y
  show V c main_v16 (((cfg3.win 2).blk t).view.emb y) = V c main_v16 y
  congr 1; funext a; apply Fin.ext
  match a with
  | ⟨0, _⟩ => show win3_2.index t (0 : Fin 2) * 128 + 1 * (y 0).val = (y 0).val; omega
  | ⟨1, _⟩ => show win3_2.index t (1 : Fin 2) * 64 + 1 * (y 1).val = (y 1).val; omega

/-- The layer bias's block at every point is the whole vector. -/
theorem bblk3 (c : Dev nD) (t : Fin cfg3.N) : iblk3 V c 3 t = V c main_arg15 := by
  obtain ⟨e0, e1, e2, e3, e4, e5, e6, e7, e8, e9, e10, e11⟩ := idx3 t
  funext y
  show V c main_arg15 (((cfg3.win 3).blk t).view.emb y) = V c main_arg15 y
  congr 1; funext a; apply Fin.ext
  match a with
  | ⟨0, _⟩ => show win3_3.index t (0 : Fin 1) * 64 + 1 * (y 0).val = (y 0).val; omega

/-- The head weights' block at every point is the whole matrix. -/
theorem woblk (c : Dev nD) (t : Fin cfg3.N) : iblk3 V c 4 t = V c main_arg17 := by
  obtain ⟨e0, e1, e2, e3, e4, e5, e6, e7, e8, e9, e10, e11⟩ := idx3 t
  funext y
  show V c main_arg17 (((cfg3.win 4).blk t).view.emb y) = V c main_arg17 y
  congr 1; funext a; apply Fin.ext
  match a with
  | ⟨0, _⟩ => show win3_4.index t (0 : Fin 2) * 64 + 1 * (y 0).val = (y 0).val; omega
  | ⟨1, _⟩ => show win3_4.index t (1 : Fin 2) * 2 + 1 * (y 1).val = (y 1).val; omega

/-- The head bias's block at every point is the whole vector. -/
theorem boblk (c : Dev nD) (t : Fin cfg3.N) : iblk3 V c 5 t = V c main_arg18 := by
  obtain ⟨e0, e1, e2, e3, e4, e5, e6, e7, e8, e9, e10, e11⟩ := idx3 t
  funext y
  show V c main_arg18 (((cfg3.win 5).blk t).view.emb y) = V c main_arg18 y
  congr 1; funext a; apply Fin.ext
  match a with
  | ⟨0, _⟩ => show win3_5.index t (0 : Fin 1) * 2 + 1 * (y 0).val = (y 0).val; omega

/-- What point t writes back is block t of the whole-array head of the layer. -/
theorem flushed3 (c : Dev nD) (t : Fin cfg3.N) :
    (dat3 V c).flushed 6 t = ((cfg3.win 6).blk t).view.read (Elt Ideal)
      (affine (layerJoined (V c main_v54) (V c main_v42) (V c main_v16) (V c main_arg15)) (V c main_arg17) (V c main_arg18)) := by
  show (cfg3.win 6).cut (grid3.coords t) ((dat3 V c).after 6 t) = _
  rw [after3_6]
  unfold out3_6
  rw [View.canon_unit_zero hz2]
  simp only [View.ld_unit_zero (S := S5000x64) hz2, View.ld_unit_zero (S := S128x64) hz2, View.ld_unit_zero (S := S64x2) hz2,
    View.ld_unit_zero (S := S64) hz1, View.ld_unit_zero (S := S2) hz1]
  rw [Blocks.pay3, wblk3 V c t, bblk3 V c t, woblk V c t, boblk V c t]
  obtain ⟨e0, e1, e2, e3, e4, e5, e6, e7, e8, e9, e10, e11⟩ := idx3 t
  funext j
  have hj0 : (j 0).val < 5000 := (j 0).isLt
  have hj1 : (j 1).val < 2 := (j 1).isLt
  have hr : win3_6.index t (0 : Fin 2) * 5000 + (j 0).val < 50000 := by omega
  show affine (layerJoined (iblk3 V c 0 t) (iblk3 V c 1 t) (V c main_v16) (V c main_arg15)) (V c main_arg17) (V c main_arg18) j
    = affine (layerJoined (V c main_v54) (V c main_v42) (V c main_v16) (V c main_arg15)) (V c main_arg17) (V c main_arg18)
        (((cfg3.win 6).blk t).view.emb j)
  have hemb : ((cfg3.win 6).blk t).view.emb j
      = ix2 (⟨win3_6.index t (0 : Fin 2) * 5000 + (j 0).val, hr⟩ : Fin 50000) (⟨(j 1).val, hj1⟩ : Fin 2) := by
    funext a; apply Fin.ext
    match a with
    | ⟨0, _⟩ => show win3_6.index t (0 : Fin 2) * 5000 + 1 * (j 0).val = win3_6.index t (0 : Fin 2) * 5000 + (j 0).val; omega
    | ⟨1, _⟩ => show win3_6.index t (1 : Fin 2) * 2 + 1 * (j 1).val = (j 1).val; omega
  have hj : j = ix2 (⟨(j 0).val, hj0⟩ : Fin 5000) (⟨(j 1).val, hj1⟩ : Fin 2) := by
    funext a
    match a with
    | ⟨0, _⟩ => rfl
    | ⟨1, _⟩ => rfl
  rw [hemb]
  refine (congrArg (affine (layerJoined (iblk3 V c 0 t) (iblk3 V c 1 t) (V c main_v16) (V c main_arg15)) (V c main_arg17)
    (V c main_arg18)) hj).trans ?_
  refine affine_rows _ _ _ _ ⟨(j 0).val, hj0⟩ ⟨win3_6.index t (0 : Fin 2) * 5000 + (j 0).val, hr⟩ (fun q => ?_) ⟨(j 1).val, hj1⟩
  refine layerJoined_rows _ _ _ _ _ _ ⟨(j 0).val, hj0⟩ ⟨win3_6.index t (0 : Fin 2) * 5000 + (j 0).val, hr⟩
    (fun k => ?_) (fun k => ?_) q
  · show V c main_v54 (((cfg3.win 0).blk t).view.emb (ix2 (⟨(j 0).val, hj0⟩ : Fin 5000) k))
      = V c main_v54 (ix2 (⟨win3_6.index t (0 : Fin 2) * 5000 + (j 0).val, hr⟩ : Fin 50000) k)
    congr 1; funext a; apply Fin.ext
    match a with
    | ⟨0, _⟩ => show win3_0.index t (0 : Fin 2) * 5000 + 1 * (j 0).val = win3_6.index t (0 : Fin 2) * 5000 + (j 0).val; omega
    | ⟨1, _⟩ => show win3_0.index t (1 : Fin 2) * 64 + 1 * k.val = k.val; omega
  · show V c main_v42 (((cfg3.win 1).blk t).view.emb (ix2 (⟨(j 0).val, hj0⟩ : Fin 5000) k))
      = V c main_v42 (ix2 (⟨win3_6.index t (0 : Fin 2) * 5000 + (j 0).val, hr⟩ : Fin 50000) k)
    congr 1; funext a; apply Fin.ext
    match a with
    | ⟨0, _⟩ => show win3_1.index t (0 : Fin 2) * 5000 + 1 * (j 0).val = win3_6.index t (0 : Fin 2) * 5000 + (j 0).val; omega
    | ⟨1, _⟩ => show win3_1.index t (1 : Fin 2) * 64 + 1 * k.val = k.val; omega

/-- An index of the output array is in point t's block iff each coordinate is in the block's range on its axis. -/
theorem mem_blk3 (t : Fin cfg3.N) (i : S50000x2.Idx) :
    i ∈ ((cfg3.win 6).blk t).view.set ↔ ∀ a : Fin 2, win3_6.index t a * S5000x2.size a ≤ (i a).val
      ∧ (i a).val < win3_6.index t a * S5000x2.size a + S5000x2.size a := by
  show i ∈ ((View.whole main_v55).slice (win3_6.rect t)).set ↔ _
  rw [View.set_slice_whole, Rect.mem_set_unit]
  exact Iff.rfl

/-- The ten row blocks tile the 50000 rows. -/
theorem cover3 (i : S50000x2.Idx) : ∃ t : Fin cfg3.N, (cfg3.win 6).flush t = true ∧ i ∈ ((cfg3.win 6).blk t).view.set := by
  have hi0 : (i 0).val < 50000 := (i 0).isLt
  have hi1 : (i 1).val < 2 := (i 1).isLt
  obtain ⟨t, ht⟩ := onto3 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 2 ≤ (i 1).val ∧ (i 1).val < win3_6.index t (1 : Fin 2) * 2 + 2; omega

/-- The region's output array ends holding the head of the layer of the arrays the region finds. -/
theorem region3 (c : Dev nD) : (dat3 V c).arrAt 6 cfg3.N
    = affine (layerJoined (V c main_v54) (V c main_v42) (V c main_v16) (V c main_arg15)) (V c main_arg17) (V c main_arg18) :=
  (dat3 V c).arrAt_eq_of_cover 6 _ (fun t _ => flushed3 V c t) cover3

end Cert.KernelIdeal.Region3

end
-- ==== Proof.KernelHost.lean ====
/-
  The kernel program's host operations between its regions.

  Before the first region the host cuts the edge list into its source and destination ends and computes, once, the
  reciprocal of every node's clamped neighbour count, as a column. Before each combine region it gathers the current
  features at the source ends (a negative end wrapped by the node count), scatter-adds them onto the destination ends of a
  zero matrix, and multiplies by the reciprocal column spread over the columns; before the first combine it also stacks each
  layer's two weight matrices by rows. Each stretch is read here from an ARBITRARY valuation of the buffers it starts from:
  what it writes, as the operations' term of what it reads.
-/
import proofs.«404516_j29910152249873_3_alg».proof.Proof.Gen.KernelIdeal.Launch
import proofs.«404516_j29910152249873_3_alg».proof.Proof.Spec
import Idealize.ShloMosaic.Lib.StableHlo.Run
import Idealize.ShloMosaic.Lib.IdealHost

set_option maxRecDepth 16384

noncomputable section

namespace Cert.KernelIdeal.Host

open Cert.KernelIdeal Cert.KernelIdeal.Gen Cert.Sage
open Idealize.ShloMosaic Idealize.ShloMosaic.TcCoe Idealize.ShloMosaic.ValueIdx Idealize.SL.Sem Idealize.ShloMosaic.StableHlo

/-- The edge list [2, E]. -/
abbrev Edges := (⟨S2x1600000, .i32⟩ : BufTy).Contents (Elt Ideal)
/-- One end of every edge [E]. -/
abbrev Ends := (⟨S1600000, .i32⟩ : BufTy).Contents (Elt Ideal)

/-- The source ends: row 0 of the edge list. -/
def srcOf (e : Edges) : Ends :=
  shapeCast S1600000 (extractStridedSlice S1x1600000 ![0, 0] e slices_S2x1600000_S1x1600000_0_0) shapeCasts_S1x1600000_S1600000

/-- The destination ends: row 1 of the edge list. -/
def dstOf (e : Edges) : Ends :=
  shapeCast S1600000 (extractStridedSlice S1x1600000 ![1, 0] e slices_S2x1600000_S1x1600000_1_0) shapeCasts_S1x1600000_S1600000

/-- The vector of ones [N]. -/
def ones : FVec Ideal S50000 .f32 := broadcastInDim S50000 ![] bcast_S_S50000 (constant (F := Ideal) S_ .f32 0x3F800000#32)

/-- Every node's neighbour count (a one scatter-added per edge onto its destination end), clamped below at 1. -/
def den (d : Ends) : FVec Ideal S50000 .f32 :=
  maximumf
    (Host.scatterAdd (F := Ideal) scatter_S50000_S1600000x1_S1600000_n_0_0_1
      (broadcastInDim S50000 ![] bcast_S_S50000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    ones

/-- The reciprocal of the clamped count, as a column [N, 1]. -/
def recipCol (d : Ends) : FVec Ideal S50000x1 .f32 :=
  broadcastInDim S50000x1 ![0] bcast_S50000_S50000x1_0 (Host.divf ones (den d))

/-- The neighbour sum of a feature matrix: its rows gathered at the source ends (a negative end wrapped by the node count),
    scatter-added onto the destination ends of a zero matrix. -/
def agg (s d : Ends) (X : FVec Ideal S50000x64 .f32) : FVec Ideal S50000x64 .f32 :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 d)
    (Host.gather gather_S50000x64_S1600000x1_S1600000x64_1_0_n_n_0_1_164 X
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 50000#32))) s)))

/-- The neighbour sum times the spread reciprocal column: the kernel program's spelling of the neighbour mean. -/
def meanMul (s d : Ends) (r : FVec Ideal S50000x1 .f32) (X : FVec Ideal S50000x64 .f32) : FVec Ideal S50000x64 .f32 :=
  mulf (agg s d X) (broadcastInDim S50000x64 ![0, 1] bcast_S50000x1_S50000x64_0_1 r)

/-- Two weight matrices stacked by rows. -/
def stack (Wl Wr : FVec Ideal S64x64 .f32) : FVec Ideal S128x64 .f32 :=
  concatenate S128x64 0 [⟨S64x64, Wl⟩, ⟨S64x64, Wr⟩] concatenates_S64x64_S64x64_S128x64_d0

/-! ## One combine, in the specification's words -/

theorem ones_apply (i : S50000.Idx) : ones i = 1 := by
  unfold ones
  rw [broadcastInDim_apply _ bcast_S_S50000 _ i ix0 (fun a => a.elim0), constant_apply, Ideal.ofBits_one_f32]

/-- The clamped count is at least 1. -/
theorem den_ge (d : Ends) (i : S50000.Idx) : 1 ≤ den d i := by
  unfold den
  rw [maximumf_apply, ones_apply]
  exact le_max_right _ _

/-- The layer of (the neighbour sum times the spread reciprocal column, the features, the stacked weights) is one step of the
    network: the product with the reciprocal of a count at least 1 is the quotient, and the joined contraction against
    weights stacked by rows is the two split contractions. -/
theorem layer_eq (s d : Ends) (X : FVec Ideal S50000x64 .f32) (Wl Wr : FVec Ideal S64x64 .f32) (b : FVec Ideal S64 .f32) :
    layerJoined (meanMul s d (recipCol d) X) X (stack Wl Wr) b = step (agg s d) (den d) X Wl Wr b := by
  unfold meanMul recipCol stack step
  rw [mul_recip_eq_meanDiv (agg s d X) ones (den d) ones_apply (den_ge d) bcast_S50000_S50000x1_0 bcast_S50000x1_S50000x64_0_1,
    concatenate_rows 64 64 128 rfl Wl Wr, layerJoined_catRows]

variable (Wb : Valuation τ sig (Elt Ideal))

/-! ## The stretch before the first region -/

theorem s0_src : StableHlo.after hostOps0 Wb (Proc.devRef .tc main_v1) = srcOf (Wb (Proc.devRef .tc main_arg2)) := by
  after_results; rfl

theorem s0_dst : StableHlo.after hostOps0 Wb (Proc.devRef .tc main_v3) = dstOf (Wb (Proc.devRef .tc main_arg2)) := by
  after_results; rfl

theorem s0_recip : StableHlo.after hostOps0 Wb (Proc.devRef .tc main_v12) = recipCol (dstOf (Wb (Proc.devRef .tc main_arg2))) := by
  after_results; rfl

/-! ## The stretch before the first combine region -/

theorem s1_mean : StableHlo.after hostOps1 Wb (Proc.devRef .tc main_v28)
    = meanMul (Wb (Proc.devRef .tc main_v1)) (Wb (Proc.devRef .tc main_v3)) (Wb (Proc.devRef .tc main_v12))
        (Wb (Proc.devRef .tc main_v13)) := by
  after_results_simp <;> rfl

theorem s1_stack1 : StableHlo.after hostOps1 Wb (Proc.devRef .tc main_v14)
    = stack (Wb (Proc.devRef .tc main_arg8)) (Wb (Proc.devRef .tc main_arg10)) := by
  after_results; rfl

theorem s1_stack2 : StableHlo.after hostOps1 Wb (Proc.devRef .tc main_v15)
    = stack (Wb (Proc.devRef .tc main_arg11)) (Wb (Proc.devRef .tc main_arg13)) := by
  after_results; rfl

theorem s1_stack3 : StableHlo.after hostOps1 Wb (Proc.devRef .tc main_v16)
    = stack (Wb (Proc.devRef .tc main_arg14)) (Wb (Proc.devRef .tc main_arg16)) := by
  after_results; rfl

/-! ## The stretches before the second and the last combine region -/

theorem s2_mean : StableHlo.after hostOps2 Wb (Proc.devRef .tc main_v41)
    = meanMul (Wb (Proc.devRef .tc main_v1)) (Wb (Proc.devRef .tc main_v3)) (Wb (Proc.devRef .tc main_v12))
        (Wb (Proc.devRef .tc main_v29)) := by
  after_results_simp <;> rfl

theorem s3_mean : StableHlo.after hostOps3 Wb (Proc.devRef .tc main_v54)
    = meanMul (Wb (Proc.devRef .tc main_v1)) (Wb (Proc.devRef .tc main_v3)) (Wb (Proc.devRef .tc main_v12))
        (Wb (Proc.devRef .tc main_v42)) := by
  after_results_simp <;> rfl

end Cert.KernelIdeal.Host

end
-- ==== Proof.KernelValue.lean ====
/-
  The kernel program's result buffer, read back through the run: the specification's network.

  The run's buffer contents at each segment boundary are a fold: a host stretch rewrites what it writes, a region rewrites its
  output array. Walking the fold back from the last boundary: the result is the last region's output, the head of the layer of
  (the neighbour mean of the second combine's output, that output, the third stacked weights); the second combine's output is
  the layer of the first's; the first's is the layer of the projection; the projection reads the arguments. The edge ends
  and the reciprocal column are computed before the first region and carried unchanged to every later stretch; so are the
  stacked weights computed before the first combine. With the laws of the specification (the product with the reciprocal is
  the quotient; the joined contraction over stacked weights is the two split ones) each combine is one `step`.
-/
import proofs.«404516_j29910152249873_3_alg».proof.Proof.Gen.KernelIdeal.Frame
import proofs.«404516_j29910152249873_3_alg».proof.Proof.KernelRegion0
import proofs.«404516_j29910152249873_3_alg».proof.Proof.KernelRegion1
import proofs.«404516_j29910152249873_3_alg».proof.Proof.KernelRegion2
import proofs.«404516_j29910152249873_3_alg».proof.Proof.KernelRegion3
import proofs.«404516_j29910152249873_3_alg».proof.Proof.KernelHost

set_option maxRecDepth 16384

noncomputable section

namespace Cert.KernelIdeal.Walk

open Cert.KernelIdeal Cert.KernelIdeal.Gen Cert.KernelIdeal.Host Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- No operation of the named stretch writes the buffer in question. -/
local macro "unwritten" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## A buffer no stretch before a boundary writes, and no region before it owns, holds its launch contents there -/

theorem at1 (r : Ref sig .tc)
    (h0 : ∀ op ∈ (hostOps0 : List (HloOp τ sig (Elt Ideal))), Proc.devRef .tc r ∉ op.writes) :
    W1 m ρ c (Proc.devRef .tc r) = m ((c : Thread nD τ).loc r) :=
  (StableHlo.after_of_forall_not_mem (b := Proc.devRef .tc r) _ _ h0).trans rfl

theorem at2 (r : Ref sig .tc)
    (h0 : ∀ op ∈ (hostOps0 : List (HloOp τ sig (Elt Ideal))), Proc.devRef .tc r ∉ op.writes)
    (n0 : ∀ w, Pipeline.arrRef spec0 w ≠ r) :
    W2 m ρ c (Proc.devRef .tc r) = m ((c : Thread nD τ).loc r) :=
  (W2_of_ne m ρ c r n0).trans (at1 m ρ c r h0)

theorem at3 (r : Ref sig .tc)
    (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes) :
    W3 m ρ c (Proc.devRef .tc r) = m ((c : Thread nD τ).loc r) :=
  (StableHlo.after_of_forall_not_mem (b := Proc.devRef .tc r) _ _ h1).trans (at2 m ρ c r h0 n0)

theorem at5 (r : Ref sig .tc)
    (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r)
    (h2 : ∀ op ∈ (hostOps2 : List (HloOp τ sig (Elt Ideal))), Proc.devRef .tc r ∉ op.writes) :
    W5 m ρ c (Proc.devRef .tc r) = m ((c : Thread nD τ).loc r) :=
  (StableHlo.after_of_forall_not_mem (b := Proc.devRef .tc r) _ _ h2).trans
    ((W4_of_ne m ρ c r n1).trans (at3 m ρ c r h0 n0 h1))

theorem at7 (r : Ref sig .tc)
    (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r)
    (h2 : ∀ op ∈ (hostOps2 : List (HloOp τ sig (Elt Ideal))), Proc.devRef .tc r ∉ op.writes)
    (n2 : ∀ w, Pipeline.arrRef spec2 w ≠ r)
    (h3 : ∀ op ∈ (hostOps3 : List (HloOp τ sig (Elt Ideal))), Proc.devRef .tc r ∉ op.writes) :
    W7 m ρ c (Proc.devRef .tc r) = m ((c : Thread nD τ).loc r) :=
  (StableHlo.after_of_forall_not_mem (b := Proc.devRef .tc r) _ _ h3).trans
    ((W6_of_ne m ρ c r n2).trans (at5 m ρ c r h0 n0 h1 n1 h2))

/-! ## What the first stretch computes is carried to every later stretch -/

/-- A buffer written before the first region that no later stretch writes and no region owns: its contents at the entry of
    the stretch before each combine region are those after the first stretch. -/
theorem carried (r : Ref sig .tc)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r)
    (h2 : ∀ op ∈ (hostOps2 : List (HloOp τ sig (Elt Ideal))), Proc.devRef .tc r ∉ op.writes)
    (n2 : ∀ w, Pipeline.arrRef spec2 w ≠ r) :
    W2 m ρ c (Proc.devRef .tc r) = W1 m ρ c (Proc.devRef .tc r)
    ∧ W4 m ρ c (Proc.devRef .tc r) = W1 m ρ c (Proc.devRef .tc r)
    ∧ W6 m ρ c (Proc.devRef .tc r) = W1 m ρ c (Proc.devRef .tc r) := by
  have e2 : W2 m ρ c (Proc.devRef .tc r) = W1 m ρ c (Proc.devRef .tc r) := W2_of_ne m ρ c r n0
  have e3 : W3 m ρ c (Proc.devRef .tc r) = W2 m ρ c (Proc.devRef .tc r) :=
    StableHlo.after_of_forall_not_mem (b := Proc.devRef .tc r) _ _ h1
  have e4 : W4 m ρ c (Proc.devRef .tc r) = W3 m ρ c (Proc.devRef .tc r) := W4_of_ne m ρ c r n1
  have e5 : W5 m ρ c (Proc.devRef .tc r) = W4 m ρ c (Proc.devRef .tc r) :=
    StableHlo.after_of_forall_not_mem (b := Proc.devRef .tc r) _ _ h2
  have e6 : W6 m ρ c (Proc.devRef .tc r) = W5 m ρ c (Proc.devRef .tc r) := W6_of_ne m ρ c r n2
  exact ⟨e2, e4.trans (e3.trans e2), e6.trans (e5.trans (e4.trans (e3.trans e2)))⟩

/-- The edge list as launched. -/
abbrev edges : Edges := m ((c : Thread nD τ).loc main_arg2)

theorem w1_src : W1 m ρ c (Proc.devRef .tc main_v1) = srcOf (edges m c) := s0_src (W0 m ρ c)
theorem w1_dst : W1 m ρ c (Proc.devRef .tc main_v3) = dstOf (edges m c) := s0_dst (W0 m ρ c)
theorem w1_recip : W1 m ρ c (Proc.devRef .tc main_v12) = recipCol (dstOf (edges m c)) := s0_recip (W0 m ρ c)

/-- The source ends, the destination ends and the reciprocal column are carried to the stretch before each combine. -/
theorem src_carried : W2 m ρ c (Proc.devRef .tc main_v1) = W1 m ρ c (Proc.devRef .tc main_v1)
    ∧ W4 m ρ c (Proc.devRef .tc main_v1) = W1 m ρ c (Proc.devRef .tc main_v1)
    ∧ W6 m ρ c (Proc.devRef .tc main_v1) = W1 m ρ c (Proc.devRef .tc main_v1) :=
  carried m ρ c main_v1 (by decide) (by unwritten hostOps1) (by decide) (by unwritten hostOps2) (by decide)
theorem dst_carried : W2 m ρ c (Proc.devRef .tc main_v3) = W1 m ρ c (Proc.devRef .tc main_v3)
    ∧ W4 m ρ c (Proc.devRef .tc main_v3) = W1 m ρ c (Proc.devRef .tc main_v3)
    ∧ W6 m ρ c (Proc.devRef .tc main_v3) = W1 m ρ c (Proc.devRef .tc main_v3) :=
  carried m ρ c main_v3 (by decide) (by unwritten hostOps1) (by decide) (by unwritten hostOps2) (by decide)
theorem recip_carried : W2 m ρ c (Proc.devRef .tc main_v12) = W1 m ρ c (Proc.devRef .tc main_v12)
    ∧ W4 m ρ c (Proc.devRef .tc main_v12) = W1 m ρ c (Proc.devRef .tc main_v12)
    ∧ W6 m ρ c (Proc.devRef .tc main_v12) = W1 m ρ c (Proc.devRef .tc main_v12) :=
  carried m ρ c main_v12 (by decide) (by unwritten hostOps1) (by decide) (by unwritten hostOps2) (by decide)

/-! ## The features after the projection and after each combine, as the specification's terms of the launch contents -/

/-- An argument array as launched. -/
abbrev arg (r : Ref sig .tc) : Buf (Elt Ideal) ((c : Thread nD τ).loc r) := m ((c : Thread nD τ).loc r)

/-- The projected features. -/
def x0 : FVec Ideal S50000x64 .f32 :=
  project (arg m c main_arg0) (arg m c main_arg1) (arg m c main_arg4) (arg m c main_arg5) (arg m c main_arg6) (arg m c main_arg7)

/-- The features after the first, second and third combine. -/
def x1 : FVec Ideal S50000x64 .f32 :=
  step (agg (srcOf (edges m c)) (dstOf (edges m c))) (den (dstOf (edges m c))) (x0 m c)
    (arg m c main_arg8) (arg m c main_arg10) (arg m c main_arg9)
def x2 : FVec Ideal S50000x64 .f32 :=
  step (agg (srcOf (edges m c)) (dstOf (edges m c))) (den (dstOf (edges m c))) (x1 m c)
    (arg m c main_arg11) (arg m c main_arg13) (arg m c main_arg12)
def x3 : FVec Ideal S50000x64 .f32 :=
  step (agg (srcOf (edges m c)) (dstOf (edges m c))) (den (dstOf (edges m c))) (x2 m c)
    (arg m c main_arg14) (arg m c main_arg16) (arg m c main_arg15)

/-! ## The first region -/

theorem w2_x0 : W2 m ρ c (Proc.devRef .tc main_v13) = x0 m c := by
  refine (W2_arr m ρ c 6).trans ((Region0.region0 (V1 m ρ) c).trans ?_)
  show project (W1 m ρ c (Proc.devRef .tc main_arg0)) (W1 m ρ c (Proc.devRef .tc main_arg1)) (W1 m ρ c (Proc.devRef .tc main_arg4))
    (W1 m ρ c (Proc.devRef .tc main_arg5)) (W1 m ρ c (Proc.devRef .tc main_arg6)) (W1 m ρ c (Proc.devRef .tc main_arg7)) = _
  rw [at1 m ρ c main_arg0 (by unwritten hostOps0), at1 m ρ c main_arg1 (by unwritten hostOps0),
    at1 m ρ c main_arg4 (by unwritten hostOps0), at1 m ρ c main_arg5 (by unwritten hostOps0),
    at1 m ρ c main_arg6 (by unwritten hostOps0), at1 m ρ c main_arg7 (by unwritten hostOps0)]
  rfl

/-! ## The first combine -/

theorem w3_mean : W3 m ρ c (Proc.devRef .tc main_v28)
    = meanMul (srcOf (edges m c)) (dstOf (edges m c)) (recipCol (dstOf (edges m c))) (x0 m c) := by
  refine (s1_mean (W2 m ρ c)).trans ?_
  rw [(src_carried m ρ c).1, (dst_carried m ρ c).1, (recip_carried m ρ c).1, w1_src, w1_dst, w1_recip, w2_x0]

theorem w3_x0 : W3 m ρ c (Proc.devRef .tc main_v13) = x0 m c :=
  (StableHlo.after_of_forall_not_mem (b := Proc.devRef .tc main_v13) _ _ (by unwritten hostOps1)).trans (w2_x0 m ρ c)

theorem w3_stack1 : W3 m ρ c (Proc.devRef .tc main_v14) = stack (arg m c main_arg8) (arg m c main_arg10) := by
  refine (s1_stack1 (W2 m ρ c)).trans ?_
  rw [at2 m ρ c main_arg8 (by unwritten hostOps0) (by decide), at2 m ρ c main_arg10 (by unwritten hostOps0) (by decide)]

theorem w3_stack2 : W3 m ρ c (Proc.devRef .tc main_v15) = stack (arg m c main_arg11) (arg m c main_arg13) := by
  refine (s1_stack2 (W2 m ρ c)).trans ?_
  rw [at2 m ρ c main_arg11 (by unwritten hostOps0) (by decide), at2 m ρ c main_arg13 (by unwritten hostOps0) (by decide)]

theorem w3_stack3 : W3 m ρ c (Proc.devRef .tc main_v16) = stack (arg m c main_arg14) (arg m c main_arg16) := by
  refine (s1_stack3 (W2 m ρ c)).trans ?_
  rw [at2 m ρ c main_arg14 (by unwritten hostOps0) (by decide), at2 m ρ c main_arg16 (by unwritten hostOps0) (by decide)]

theorem w4_x1 : W4 m ρ c (Proc.devRef .tc main_v29) = x1 m c := by
  refine (W4_arr m ρ c 4).trans ((Region1.region1 (V3 m ρ) c).trans ?_)
  show layerJoined (W3 m ρ c (Proc.devRef .tc main_v28)) (W3 m ρ c (Proc.devRef .tc main_v13))
    (W3 m ρ c (Proc.devRef .tc main_v14)) (W3 m ρ c (Proc.devRef .tc main_arg9)) = _
  rw [w3_mean, w3_x0, w3_stack1, at3 m ρ c main_arg9 (by unwritten hostOps0) (by decide) (by unwritten hostOps1)]
  exact layer_eq _ _ _ _ _ _

/-! ## The second combine -/

theorem w5_mean : W5 m ρ c (Proc.devRef .tc main_v41)
    = meanMul (srcOf (edges m c)) (dstOf (edges m c)) (recipCol (dstOf (edges m c))) (x1 m c) := by
  refine (s2_mean (W4 m ρ c)).trans ?_
  rw [(src_carried m ρ c).2.1, (dst_carried m ρ c).2.1, (recip_carried m ρ c).2.1, w1_src, w1_dst, w1_recip, w4_x1]

theorem w5_x1 : W5 m ρ c (Proc.devRef .tc main_v29) = x1 m c :=
  (StableHlo.after_of_forall_not_mem (b := Proc.devRef .tc main_v29) _ _ (by unwritten hostOps2)).trans (w4_x1 m ρ c)

theorem w5_stack2 : W5 m ρ c (Proc.devRef .tc main_v15) = stack (arg m c main_arg11) (arg m c main_arg13) :=
  (StableHlo.after_of_forall_not_mem (b := Proc.devRef .tc main_v15) _ _ (by unwritten hostOps2)).trans
    ((W4_of_ne m ρ c main_v15 (by decide)).trans (w3_stack2 m ρ c))

theorem w6_x2 : W6 m ρ c (Proc.devRef .tc main_v42) = x2 m c := by
  refine (W6_arr m ρ c 4).trans ((Region2.region2 (V5 m ρ) c).trans ?_)
  show layerJoined (W5 m ρ c (Proc.devRef .tc main_v41)) (W5 m ρ c (Proc.devRef .tc main_v29))
    (W5 m ρ c (Proc.devRef .tc main_v15)) (W5 m ρ c (Proc.devRef .tc main_arg12)) = _
  rw [w5_mean, w5_x1, w5_stack2,
    at5 m ρ c main_arg12 (by unwritten hostOps0) (by decide) (by unwritten hostOps1) (by decide) (by unwritten hostOps2)]
  exact layer_eq _ _ _ _ _ _

/-! ## The last combine and the head -/

theorem w7_mean : W7 m ρ c (Proc.devRef .tc main_v54)
    = meanMul (srcOf (edges m c)) (dstOf (edges m c)) (recipCol (dstOf (edges m c))) (x2 m c) := by
  refine (s3_mean (W6 m ρ c)).trans ?_
  rw [(src_carried m ρ c).2.2, (dst_carried m ρ c).2.2, (recip_carried m ρ c).2.2, w1_src, w1_dst, w1_recip, w6_x2]

theorem w7_x2 : W7 m ρ c (Proc.devRef .tc main_v42) = x2 m c :=
  (StableHlo.after_of_forall_not_mem (b := Proc.devRef .tc main_v42) _ _ (by unwritten hostOps3)).trans (w6_x2 m ρ c)

theorem w7_stack3 : W7 m ρ c (Proc.devRef .tc main_v16) = stack (arg m c main_arg14) (arg m c main_arg16) :=
  (StableHlo.after_of_forall_not_mem (b := Proc.devRef .tc main_v16) _ _ (by unwritten hostOps3)).trans
    ((W6_of_ne m ρ c main_v16 (by decide)).trans
      ((StableHlo.after_of_forall_not_mem (b := Proc.devRef .tc main_v16) _ _ (by unwritten hostOps2)).trans
        ((W4_of_ne m ρ c main_v16 (by decide)).trans (w3_stack3 m ρ c))))

/-- The result buffer at the last boundary: the network of the launch contents, over the kernel program's own neighbour sum
    and clamped count. -/
theorem value : W8 m ρ c (Proc.devRef .tc main_v55)
    = net (agg (srcOf (edges m c)) (dstOf (edges m c))) (den (dstOf (edges m c)))
        (arg m c main_arg0) (arg m c main_arg1) (arg m c main_arg4) (arg m c main_arg5) (arg m c main_arg6) (arg m c main_arg7)
        (arg m c main_arg8) (arg m c main_arg9) (arg m c main_arg10) (arg m c main_arg11) (arg m c main_arg12) (arg m c main_arg13)
        (arg m c main_arg14) (arg m c main_arg15) (arg m c main_arg16) (arg m c main_arg17) (arg m c main_arg18) := by
  refine (W8_arr m ρ c 6).trans ((Region3.region3 (V7 m ρ) c).trans ?_)
  show affine (layerJoined (W7 m ρ c (Proc.devRef .tc main_v54)) (W7 m ρ c (Proc.devRef .tc main_v42))
      (W7 m ρ c (Proc.devRef .tc main_v16)) (W7 m ρ c (Proc.devRef .tc main_arg15)))
    (W7 m ρ c (Proc.devRef .tc main_arg17)) (W7 m ρ c (Proc.devRef .tc main_arg18)) = _
  rw [w7_mean, w7_x2, w7_stack3,
    at7 m ρ c main_arg15 (by unwritten hostOps0) (by decide) (by unwritten hostOps1) (by decide) (by unwritten hostOps2) (by decide)
      (by unwritten hostOps3),
    at7 m ρ c main_arg17 (by unwritten hostOps0) (by decide) (by unwritten hostOps1) (by decide) (by unwritten hostOps2) (by decide)
      (by unwritten hostOps3),
    at7 m ρ c main_arg18 (by unwritten hostOps0) (by decide) (by unwritten hostOps1) (by decide) (by unwritten hostOps2) (by decide)
      (by unwritten hostOps3),
    layer_eq]
  rfl

end Cert.KernelIdeal.Walk

end
-- ==== Proof.Reference.lean ====
/-
  The reference's result as the specification's network.

  The reference computes, on the host: the two projections side by side; three times the neighbour sum (a gather of the
  source rows scatter-added onto the destination rows), its quotient by the clamped neighbour count, and the layer with two
  products over 64 positions; and the output head. The neighbour sum and the clamped count are carried as the functions
  `agg` and `den` of the edge list and never opened: each of the three steps recomputes them from the same edge list by
  the same operations, so they are the same terms.
-/
import proofs.«404516_j29910152249873_3_alg».proof.Proof.Gen.ReferenceIdeal.Read
import proofs.«404516_j29910152249873_3_alg».proof.Proof.Gen.ReferenceIdeal.Run
import proofs.«404516_j29910152249873_3_alg».proof.Proof.Spec

noncomputable section

namespace Cert.ReferenceIdeal.Net

open Cert.ReferenceIdeal Cert.ReferenceIdeal.Read Cert.Sage
open Cert.ReferenceIdeal.Facts₀ Cert.ReferenceIdeal.Facts
open Idealize.ShloMosaic Idealize.ShloMosaic.ValueIdx

/-- The neighbour sum of a feature matrix: the source rows gathered, then scatter-added onto the destination rows of a
    zero matrix. -/
def agg (e : (⟨S2x1600000, .i32⟩ : BufTy).Contents (Elt Ideal)) (X : FVec Ideal S50000x64 .f32) : FVec Ideal S50000x64 .f32 :=
  Host.scatterAdd (F := Ideal) scatter_S50000x64_S1600000x1_S1600000x64_1_0_0_1 (val_main_v20 (F := Ideal)) (val_main_v21 (F := Ideal) e)
    (Host.gather gather_S50000x64_S1600000x1_S1600000x64_1_0_n_n_0_1_164 X (val_main_v18 (F := Ideal) e))

/-- The neighbour count of every node, clamped below at 1. -/
def den (e : (⟨S2x1600000, .i32⟩ : BufTy).Contents (Elt Ideal)) : FVec Ideal S50000 .f32 :=
  val_main_v28 (F := Ideal) e

/-- One step as the host spells it — the neighbour sum over the spread clamped count, two products over 64 positions with the
    bias between them, the maximum with a spread zero — is the specification's step. -/
theorem hostStep_eq (e : (⟨S2x1600000, .i32⟩ : BufTy).Contents (Elt Ideal)) (X : FVec Ideal S50000x64 .f32)
    (Wl Wr : FVec Ideal S64x64 .f32) (b : FVec Ideal S64 .f32) :
    maximumf
      (addf
        (addf
          (Host.dotGeneral dot_S50000x64_S64x64_S50000x64_1_0_0_1_n_n none
            (Host.divf (agg e X)
              (broadcastInDim S50000x64 ![0, 1] bcast_S50000x1_S50000x64_0_1
                (broadcastInDim S50000x1 ![0] bcast_S50000_S50000x1_0 (den e))))
            Wl)
          (broadcastInDim S50000x64 ![0, 1] bcast_S1x64_S50000x64_0_1 (broadcastInDim S1x64 ![1] bcast_S64_S1x64_1 b)))
        (Host.dotGeneral dot_S50000x64_S64x64_S50000x64_1_0_0_1_n_n none X Wr))
      (broadcastInDim S50000x64 ![] bcast_S_S50000x64 (constant (F := Ideal) S_ .f32 0x00000000#32))
    = step (agg e) (den e) X Wl Wr b := by
  unfold step
  rw [div_spread_eq_meanDiv (agg e X) (den e) bcast_S50000_S50000x1_0 bcast_S50000x1_S50000x64_0_1]
  exact hostLayer_eq (meanDiv (agg e X) (den e)) X Wl Wr b dot_S50000x64_S64x64_S50000x64_1_0_0_1_n_n.wf
    bcast_S64_S1x64_1 bcast_S1x64_S50000x64_0_1 bcast_S_S50000x64

variable (x0 : (⟨S50000x768, .f32⟩ : BufTy).Contents (Elt Ideal)) (x1 : (⟨S50000x128, .f32⟩ : BufTy).Contents (Elt Ideal))
  (x2 : (⟨S2x1600000, .i32⟩ : BufTy).Contents (Elt Ideal))
  (x4 : (⟨S768x32, .f32⟩ : BufTy).Contents (Elt Ideal)) (x5 : (⟨S32, .f32⟩ : BufTy).Contents (Elt Ideal))
  (x6 : (⟨S128x32, .f32⟩ : BufTy).Contents (Elt Ideal)) (x7 : (⟨S32, .f32⟩ : BufTy).Contents (Elt Ideal))
  (x8 : (⟨S64x64, .f32⟩ : BufTy).Contents (Elt Ideal)) (x9 : (⟨S64, .f32⟩ : BufTy).Contents (Elt Ideal)) (x10 : (⟨S64x64, .f32⟩ : BufTy).Contents (Elt Ideal))
  (x11 : (⟨S64x64, .f32⟩ : BufTy).Contents (Elt Ideal)) (x12 : (⟨S64, .f32⟩ : BufTy).Contents (Elt Ideal)) (x13 : (⟨S64x64, .f32⟩ : BufTy).Contents (Elt Ideal))
  (x14 : (⟨S64x64, .f32⟩ : BufTy).Contents (Elt Ideal)) (x15 : (⟨S64, .f32⟩ : BufTy).Contents (Elt Ideal)) (x16 : (⟨S64x64, .f32⟩ : BufTy).Contents (Elt Ideal))
  (x17 : (⟨S64x2, .f32⟩ : BufTy).Contents (Elt Ideal)) (x18 : (⟨S2, .f32⟩ : BufTy).Contents (Elt Ideal))

/-- The projection: the two host affine maps, side by side. -/
theorem proj_eq : val_main_v12 (F := Ideal) x0 x1 x4 x5 x6 x7 = project x0 x1 x4 x5 x6 x7 := by
  unfold val_main_v12 project
  rw [concatenate_cols 32 32 64 rfl]
  congr 1
  · exact hostAffine_eq x0 x4 x5 dot_S50000x768_S768x32_S50000x32_1_0_0_1_n_n.wf bcast_S32_S1x32_1 bcast_S1x32_S50000x32_0_1
  · exact hostAffine_eq x1 x6 x7 dot_S50000x128_S128x32_S50000x32_1_0_0_1_n_n.wf bcast_S32_S1x32_1 bcast_S1x32_S50000x32_0_1

/-- The first step, from the projection: the program's operations are the host's spelling of the step. -/
theorem layer1_eq : val_main_v38 (F := Ideal) x0 x1 x2 x4 x5 x6 x7 x8 x9 x10
    = step (agg x2) (den x2) (val_main_v12 (F := Ideal) x0 x1 x4 x5 x6 x7) x8 x10 x9 :=
  hostStep_eq x2 (val_main_v12 (F := Ideal) x0 x1 x4 x5 x6 x7) x8 x10 x9

/-- The second step: the neighbour sum and the clamped count are recomputed by the same operations of the same edge list. -/
theorem layer2_eq : val_main_v64 (F := Ideal) x0 x1 x2 x4 x5 x6 x7 x8 x9 x10 x11 x12 x13
    = step (agg x2) (den x2) (val_main_v38 (F := Ideal) x0 x1 x2 x4 x5 x6 x7 x8 x9 x10) x11 x13 x12 :=
  hostStep_eq x2 (val_main_v38 (F := Ideal) x0 x1 x2 x4 x5 x6 x7 x8 x9 x10) x11 x13 x12

/-- The third step. -/
theorem layer3_eq : val_main_v90 (F := Ideal) x0 x1 x2 x4 x5 x6 x7 x8 x9 x10 x11 x12 x13 x14 x15 x16
    = step (agg x2) (den x2) (val_main_v64 (F := Ideal) x0 x1 x2 x4 x5 x6 x7 x8 x9 x10 x11 x12 x13) x14 x16 x15 :=
  hostStep_eq x2 (val_main_v64 (F := Ideal) x0 x1 x2 x4 x5 x6 x7 x8 x9 x10 x11 x12 x13) x14 x16 x15

/-- The output head: a host affine map. -/
theorem head_eq : val_main_v94 (F := Ideal) x0 x1 x2 x4 x5 x6 x7 x8 x9 x10 x11 x12 x13 x14 x15 x16 x17 x18 = affine (val_main_v90 (F := Ideal) x0 x1 x2 x4 x5 x6 x7 x8 x9 x10 x11 x12 x13 x14 x15 x16) x17 x18 :=
  hostAffine_eq (val_main_v90 (F := Ideal) x0 x1 x2 x4 x5 x6 x7 x8 x9 x10 x11 x12 x13 x14 x15 x16) x17 x18 dot_S50000x64_S64x2_S50000x2_1_0_0_1_n_n.wf bcast_S2_S1x2_1 bcast_S1x2_S50000x2_0_1

/-- The reference's result is the network over its own neighbour sum and clamped count. -/
theorem value : val_main_v94 (F := Ideal) x0 x1 x2 x4 x5 x6 x7 x8 x9 x10 x11 x12 x13 x14 x15 x16 x17 x18
    = net (agg x2) (den x2) x0 x1 x4 x5 x6 x7 x8 x9 x10 x11 x12 x13 x14 x15 x16 x17 x18 := by
  rw [head_eq, layer3_eq, layer2_eq, layer1_eq, proj_eq]
  rfl

end Cert.ReferenceIdeal.Net

end
-- ==== Proof.lean ====
/-
  The five claims.

  The three frames: the two kernel programs' runs are the generated frames; the reference's is its generated run with the
  result dropped. The ideal pass rewrote nothing, so `preserves` is trivial.

  The value claim. The kernel program's result buffer ends at the specification's network of the launch contents
  (`Walk.value`, over the run with the result named), and so does the reference's (`Net.value`, over its generated run).
  The network takes the neighbour sum and the clamped neighbour count as parameters; the two programs build them from the
  same edge list by the same host operations (the same gather and scatter-add dimension numbers over the same shapes), so the
  parameters are the same functions, and the two results are one term.
-/
import proofs.«404516_j29910152249873_3_alg».proof.Defs
import proofs.«404516_j29910152249873_3_alg».proof.Proof.Gen.Kernel
import proofs.«404516_j29910152249873_3_alg».proof.Proof.Gen.Kernel.Skeleton
import proofs.«404516_j29910152249873_3_alg».proof.Proof.Gen.Kernel.Launch
import proofs.«404516_j29910152249873_3_alg».proof.Proof.Gen.Kernel.Points
import proofs.«404516_j29910152249873_3_alg».proof.Proof.Gen.Kernel.Frame
import proofs.«404516_j29910152249873_3_alg».proof.Proof.Gen.KernelIdeal
import proofs.«404516_j29910152249873_3_alg».proof.Proof.Gen.KernelIdeal.Skeleton
import proofs.«404516_j29910152249873_3_alg».proof.Proof.Gen.KernelIdeal.Launch
import proofs.«404516_j29910152249873_3_alg».proof.Proof.Gen.KernelIdeal.Points
import proofs.«404516_j29910152249873_3_alg».proof.Proof.Gen.KernelIdeal.Frame
import proofs.«404516_j29910152249873_3_alg».proof.Proof.Gen.ReferenceIdeal
import proofs.«404516_j29910152249873_3_alg».proof.Proof.Gen.ReferenceIdeal.Run
import proofs.«404516_j29910152249873_3_alg».proof.Proof.Gen.ReferenceIdeal.Read
import proofs.«404516_j29910152249873_3_alg».proof.Proof.Gen.Pre_finite_inputs
import proofs.«404516_j29910152249873_3_alg».proof.Proof.KernelRun
import proofs.«404516_j29910152249873_3_alg».proof.Proof.KernelValue
import proofs.«404516_j29910152249873_3_alg».proof.Proof.Reference
import Idealize.ShloMosaic.Adequacy
import Idealize.ShloMosaic.Init

noncomputable section

namespace Cert.Proof

open Idealize.ShloMosaic Idealize.ShloMosaic.TcCoe Idealize.SL.Sem

/-- The two programs' neighbour sums are one function of the edge list and the feature matrix. -/
theorem agg_eq (e : (⟨Cert.ReferenceIdeal.S2x1600000, .i32⟩ : BufTy).Contents (Elt Ideal)) :
    Cert.ReferenceIdeal.Net.agg e = Cert.KernelIdeal.Host.agg (Cert.KernelIdeal.Host.srcOf e) (Cert.KernelIdeal.Host.dstOf e) := rfl

/-- The two programs' clamped neighbour counts are one function of the edge list. -/
theorem den_eq (e : (⟨Cert.ReferenceIdeal.S2x1600000, .i32⟩ : BufTy).Contents (Elt Ideal)) :
    Cert.ReferenceIdeal.Net.den e = Cert.KernelIdeal.Host.den (Cert.KernelIdeal.Host.dstOf e) := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.W8 m ρ c (Proc.devRef .tc Cert.KernelIdeal.main_v55),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v94_eq, Cert.ReferenceIdeal.Net.value,
    a0, a1, a2, a4, a5, a6, a7, a8, a9, a10, a11, a12, a13, a14, a15, a16, a17, a18, agg_eq, den_eq]
  exact (Cert.KernelIdeal.Walk.value m ρ c).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
